-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)) (v1 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_v58) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x128 : Shape := ⟨3, ![8, 8192, 128]⟩
abbrev S2x65536 : Shape := ⟨2, ![2, 65536]⟩
abbrev S128x128 : Shape := ⟨2, ![128, 128]⟩
abbrev S_ : Shape := ⟨0, ![]⟩

class Facts : Prop where
  bcast_S_S8x8192x128 : S_.BroadcastsInDim S8x8192x128 (![] : Fin 0 → Fin S8x8192x128.rank)
  reducesTo_S8x8192x128_S_d0_1_2 : S8x8192x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S8x8192x128 .f32) (main_arg1 : IVec S2x65536 32) (main_arg2 : FVec F S128x128 .f32) : IVec S_ 1 :=
  let main_v0 : FVec F S8x8192x128 .f32 := Host.absf main_arg0
  let main_cst : FVec F S_ .f32 := constant S_ .f32 0x7F800000#32
  let main_v1 : FVec F S8x8192x128 .f32 := broadcastInDim S8x8192x128 ![] bcast_S_S8x8192x128 main_cst
  let main_v2 : IVec S8x8192x128 1 := cmpf .olt main_v0 main_v1
  let main_c : IVec S_ 1 := constantI S_ 1 1#1
  let main_v3 : IVec S_ 1 := (fun x v => Host.reduce IntOp.andi x v reducesTo_S8x8192x128_S_d0_1_2 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S8x8192x128 : Shape := ⟨3, ![8, 8192, 128]⟩
abbrev S2x65536 : Shape := ⟨2, ![2, 65536]⟩
abbrev S128x128 : Shape := ⟨2, ![128, 128]⟩
abbrev S65536x128 : Shape := ⟨2, ![65536, 128]⟩
abbrev S2048x128 : Shape := ⟨2, ![2048, 128]⟩
abbrev S1x65536 : Shape := ⟨2, ![1, 65536]⟩
abbrev S65536 : Shape := ⟨1, ![65536]⟩
abbrev S_ : Shape := ⟨0, ![]⟩
abbrev S8192 : Shape := ⟨1, ![8192]⟩
abbrev S65536x1 : Shape := ⟨2, ![65536, 1]⟩
abbrev S8192x8x128 : Shape := ⟨3, ![8192, 8, 128]⟩
abbrev S65536x8x128 : Shape := ⟨3, ![65536, 8, 128]⟩
abbrev S8192x1x1 : Shape := ⟨3, ![8192, 1, 1]⟩
abbrev S8192x1 : Shape := ⟨2, ![8192, 1]⟩
abbrev S1x8192x1 : Shape := ⟨3, ![1, 8192, 1]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩

abbrev nBuf : Space → Nat
  | .hbm => 87
  | .vmem => 11
  | .smem => 0
  | _ => 0

abbrev bufTy : (tb : Table) → Fin (tcTables nBuf tb) → BufTy
  | .hbm, ⟨0, _⟩ => ⟨S8x8192x128, .f32⟩
  | .hbm, ⟨1, _⟩ => ⟨S2x65536, .i32⟩
  | .hbm, ⟨2, _⟩ => ⟨S128x128, .f32⟩
  | .hbm, ⟨3, _⟩ => ⟨S65536x128, .f32⟩
  | .hbm, ⟨4, _⟩ => ⟨S65536x128, .f32⟩
  | .hbm, ⟨5, _⟩ => ⟨S8x8192x128, .f32⟩
  | .hbm, ⟨6, _⟩ => ⟨S1x65536, .i32⟩
  | .hbm, ⟨7, _⟩ => ⟨S65536, .i32⟩
  | .hbm, ⟨8, _⟩ => ⟨S1x65536, .i32⟩
  | .hbm, ⟨9, _⟩ => ⟨S65536, .i32⟩
  | .hbm, ⟨10, _⟩ => ⟨S_, .i32⟩
  | .hbm, ⟨11, _⟩ => ⟨S65536, .i32⟩
  | .hbm, ⟨12, _⟩ => ⟨S_, .i32⟩
  | .hbm, ⟨13, _⟩ => ⟨S8192, .i32⟩
  | .hbm, ⟨14, _⟩ => ⟨S65536x1, .i32⟩
  | .hbm, ⟨15, _⟩ => ⟨S8192, .i32⟩
  | .hbm, ⟨16, _⟩ => ⟨S8192x8x128, .f32⟩
  | .hbm, ⟨17, _⟩ => ⟨S_, .i32⟩
  | .hbm, ⟨18, _⟩ => ⟨S65536, .i32⟩
  | .hbm, ⟨19, _⟩ => ⟨S65536, .i1⟩
  | .hbm, ⟨20, _⟩ => ⟨S_, .i32⟩
  | .hbm, ⟨21, _⟩ => ⟨S65536, .i32⟩
  | .hbm, ⟨22, _⟩ => ⟨S65536, .i32⟩
  | .hbm, ⟨23, _⟩ => ⟨S65536, .i32⟩
  | .hbm, ⟨24, _⟩ => ⟨S65536x1, .i32⟩
  | .hbm, ⟨25, _⟩ => ⟨S65536x8x128, .f32⟩
  | .hbm, ⟨26, _⟩ => ⟨S_, .f32⟩
  | .hbm, ⟨27, _⟩ => ⟨S8192x8x128, .f32⟩
  | .hbm, ⟨28, _⟩ => ⟨S65536x1, .i32⟩
  | .hbm, ⟨29, _⟩ => ⟨S8192x8x128, .f32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .f32⟩
  | .hbm, ⟨34, _⟩ => ⟨S8192x1x1, .f32⟩
  | .hbm, ⟨35, _⟩ => ⟨S8192x8x128, .f32⟩
  | .hbm, ⟨36, _⟩ => ⟨S8192x8x128, .f32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S65536, .i32⟩
  | .hbm, ⟨46, _⟩ => ⟨S_, .i32⟩
  | .hbm, ⟨47, _⟩ => ⟨S65536, .i32⟩
  | .hbm, ⟨48, _⟩ => ⟨S65536, .i1⟩
  | .hbm, ⟨49, _⟩ => ⟨S_, .i32⟩
  | .hbm, ⟨50, _⟩ => ⟨S_, .i32⟩
  | .hbm, ⟨51, _⟩ => ⟨S65536, .i32⟩
  | .hbm, ⟨52, _⟩ => ⟨S65536, .i32⟩
  | .hbm, ⟨53, _⟩ => ⟨S_, .i32⟩
  | .hbm, ⟨54, _⟩ => ⟨S8192, .i32⟩
  | .hbm, ⟨55, _⟩ => ⟨S65536x1, .i32⟩
  | .hbm, ⟨56, _⟩ => ⟨S8192, .i32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S8192, .i32⟩
  | .hbm, ⟨64, _⟩ => ⟨S8192, .i32⟩
  | .hbm, ⟨65, _⟩ => ⟨S_, .i32⟩
  | .hbm, ⟨66, _⟩ => ⟨S8192, .i32⟩
  | .hbm, ⟨67, _⟩ => ⟨S8192, .i32⟩
  | .hbm, ⟨68, _⟩ => ⟨S_, .i32⟩
  | .hbm, ⟨69, _⟩ => ⟨S8192, .i32⟩
  | .hbm, ⟨70, _⟩ => ⟨S8192, .i1⟩
  | .hbm, ⟨71, _⟩ => ⟨S_, .i32⟩
  | .hbm, ⟨72, _⟩ => ⟨S8192, .i32⟩
  | .hbm, ⟨73, _⟩ => ⟨S8192, .i32⟩
  | .hbm, ⟨74, _⟩ => ⟨S8192, .i32⟩
  | .hbm, ⟨75, _⟩ => ⟨S8192x1, .i32⟩
  | .hbm, ⟨76, _⟩ => ⟨S8192x8x128, .f32⟩
  | .hbm, ⟨77, _⟩ => ⟨S8x8192x128, .f32⟩
  | .hbm, ⟨78, _⟩ => ⟨S1x8192x1, .i1⟩
  | .hbm, ⟨79, _⟩ => ⟨S8x8192x128, .i1⟩
  | .hbm, ⟨80, _⟩ => ⟨S8x8192x128, .f32⟩
  | .hbm, ⟨81, _⟩ => ⟨S65536x128, .f32⟩
  | .hbm, ⟨82, _⟩ => ⟨S65536x128, .f32⟩
  | .hbm, ⟨83, _⟩ => ⟨S1x1, .f32⟩
  | .hbm, ⟨84, _⟩ => ⟨S_, .f32⟩
  | .hbm, ⟨85, _⟩ => ⟨S_, .f32⟩
  | .hbm, ⟨86, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S2048x128, .f32⟩
  | .local _ .vmem, ⟨4, _⟩ => ⟨S2048x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S1x1, .f32⟩
  | .local _ .vmem, ⟨10, _⟩ => ⟨S1x1, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_c_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_call0_v0 : Ref sig .tc := ⟨.hbm, 50, rfl⟩
abbrev main_call0_v1 : Ref sig .tc := ⟨.hbm, 51, rfl⟩
abbrev main_v37 : Ref sig .tc := ⟨.hbm, 52, rfl⟩
abbrev main_c_8 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_9 : Ref sig .tc := ⟨.hbm, 57, rfl⟩
abbrev main_v41 : Ref sig .tc := ⟨.hbm, 58, rfl⟩
abbrev main_v42 : Ref sig .tc := ⟨.hbm, 59, rfl⟩
abbrev main_c_10 : Ref sig .tc := ⟨.hbm, 60, rfl⟩
abbrev main_c_11 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_v43 : Ref sig .tc := ⟨.hbm, 67, rfl⟩
abbrev main_c_12 : Ref sig .tc := ⟨.hbm, 68, rfl⟩
abbrev main_v44 : Ref sig .tc := ⟨.hbm, 69, rfl⟩
abbrev main_v45 : Ref sig .tc := ⟨.hbm, 70, rfl⟩
abbrev main_c_13 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_14 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v18 : BitVec 1 := Scalar.cmpi .eq arg0 c15_i32
  let v19 : BitVec 32 := Scalar.extui v18
  let c0_i32_9 : BitVec 32 := 0#32
  let v20 : BitVec 1 := Scalar.cmpi .ne v19 c0_i32_9
  v20

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  shapeCasts_S8x8192x128_S65536x128 : S8x8192x128.ShapeCasts S65536x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S65536x128_S8x8192x128 : S65536x128.ShapeCasts S8x8192x128
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  transposes_S8x8192x128_S8192x8x128_1_0_2 : S8x8192x128.Transposes [1, 0, 2] S8192x8x128
  bcast_S_S8192x8x128 : S_.BroadcastsInDim S8192x8x128 (![] : Fin 0 → Fin S8192x8x128.rank)
  bcast_S8192_S8192x1x1_0 : S8192.BroadcastsInDim S8192x1x1 (![0] : Fin 1 → Fin S8192x1x1.rank)
  bcast_S8192x1x1_S8192x8x128_0_1_2 : S8192x1x1.BroadcastsInDim S8192x8x128 (![0, 1, 2] : Fin 3 → Fin S8192x8x128.rank)
  bcast_S8192_S8192x1_0 : S8192.BroadcastsInDim S8192x1 (![0] : Fin 1 → Fin S8192x1.rank)
  transposes_S8192x8x128_S8x8192x128_1_0_2 : S8192x8x128.Transposes [1, 0, 2] S8x8192x128
  bcast_S8192_S1x8192x1_1 : S8192.BroadcastsInDim S1x8192x1 (![1] : Fin 1 → Fin S1x8192x1.rank)
  bcast_S1x8192x1_S8x8192x128_0_1_2 : S1x8192x1.BroadcastsInDim S8x8192x128 (![0, 1, 2] : Fin 3 → Fin S8x8192x128.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  dot_S2048x128_S128x128_S2048x128_1_0_0_1_n_n_wf : DotDims.WF S2048x128 S128x128 S2048x128 [1] [0] [0] [1] [] []
  scatter_S8192_S65536x1_S65536_n_0_0_1_wf : ScatterDims.WF S8192 S65536x1 S65536 [] [0] [0] 1
  gather_S8192x8x128_S65536x1_S65536x8x128_12_0_n_n_0_1_18128_wf : GatherDims.WF S8192x8x128 S65536x1 S65536x8x128 [1, 2] [0] [] [0] [] 1 ![1, 8, 128]
  scatter_S8192x8x128_S65536x1_S65536x8x128_12_0_0_1_wf : ScatterDims.WF S8192x8x128 S65536x1 S65536x8x128 [1, 2] [0] [0] 1
  gather_S8192_S65536x1_S65536_n_0_n_n_0_1_1_wf : GatherDims.WF S8192 S65536x1 S65536 [] [0] [] [0] [] 1 ![1]
  gather_S8192x8x128_S8192x1_S8192x8x128_12_0_n_n_0_1_18128_wf : GatherDims.WF S8192x8x128 S8192x1 S8192x8x128 [1, 2] [0] [] [0] [] 1 ![1, 8, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S65536x128.size a
  hwx0_2 : ∀ i : grid0.Coords, EltTy.bits .f32 = 32 ∨ (Rect.block (s := S65536x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S65536x128.size a
  hwx1_1 : ∀ i : grid1.Coords, EltTy.bits .f32 = 32 ∨ (Rect.block (s := S65536x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x8x128_S65536x1_S65536x8x128_12_0_n_n_0_1_18128 : GatherDims S8192x8x128 S65536x1 S65536x8x128 where
  offsetDims := [1, 2]
  collapsedSliceDims := [0]
  operandBatchingDims := []
  startIndicesBatchingDims := []
  startIndexMap := [0]
  indexVectorDim := 1
  sliceSizes := ![1, 8, 128]
  wf := gather_S8192x8x128_S65536x1_S65536x8x128_12_0_n_n_0_1_18128_wf
def scatter_S8192x8x128_S65536x1_S65536x8x128_12_0_0_1 : ScatterDims S8192x8x128 S65536x1 S65536x8x128 where
  updateWindowDims := [1, 2]
  insertedWindowDims := [0]
  scatterDimsToOperandDims := [0]
  indexVectorDim := 1
  wf := scatter_S8192x8x128_S65536x1_S65536x8x128_12_0_0_1_wf
def gather_S8192_S65536x1_S65536_n_0_n_n_0_1_1 : GatherDims S8192 S65536x1 S65536 where
  offsetDims := []
  collapsedSliceDims := [0]
  operandBatchingDims := []
  startIndicesBatchingDims := []
  startIndexMap := [0]
  indexVectorDim := 1
  sliceSizes := ![1]
  wf := gather_S8192_S65536x1_S65536_n_0_n_n_0_1_1_wf
def gather_S8192x8x128_S8192x1_S8192x8x128_12_0_n_n_0_1_18128 : GatherDims S8192x8x128 S8192x1 S8192x8x128 where
  offsetDims := [1, 2]
  collapsedSliceDims := [0]
  operandBatchingDims := []
  startIndicesBatchingDims := []
  startIndexMap := [0]
  indexVectorDim := 1
  sliceSizes := ![1, 8, 128]
  wf := gather_S8192x8x128_S8192x1_S8192x8x128_12_0_n_n_0_1_18128_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v54) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x8192x128 : Shape := ⟨3, ![8, 8192, 128]⟩
abbrev S2x65536 : Shape := ⟨2, ![2, 65536]⟩
abbrev S128x128 : Shape := ⟨2, ![128, 128]⟩
abbrev S1x65536 : Shape := ⟨2, ![1, 65536]⟩
abbrev S65536 : Shape := ⟨1, ![65536]⟩
abbrev S_ : Shape := ⟨0, ![]⟩
abbrev S8192 : Shape := ⟨1, ![8192]⟩
abbrev S65536x1 : Shape := ⟨2, ![65536, 1]⟩
abbrev S8192x8x128 : Shape := ⟨3, ![8192, 8, 128]⟩
abbrev S65536x8x128 : Shape := ⟨3, ![65536, 8, 128]⟩
abbrev S8192x1x1 : Shape := ⟨3, ![8192, 1, 1]⟩
abbrev S8192x1 : Shape := ⟨2, ![8192, 1]⟩
abbrev S1x8192x1 : Shape := ⟨3, ![1, 8192, 1]⟩

abbrev nBuf : Space → Nat
  | .hbm => 85
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S2x65536, .i32⟩
  | .hbm, ⟨2, _⟩ => ⟨S128x128, .f32⟩
  | .hbm, ⟨3, _⟩ => ⟨S8x8192x128, .f32⟩
  | .hbm, ⟨4, _⟩ => ⟨S1x65536, .i32⟩
  | .hbm, ⟨5, _⟩ => ⟨S65536, .i32⟩
  | .hbm, ⟨6, _⟩ => ⟨S1x65536, .i32⟩
  | .hbm, ⟨7, _⟩ => ⟨S65536, .i32⟩
  | .hbm, ⟨8, _⟩ => ⟨S_, .i32⟩
  | .hbm, ⟨9, _⟩ => ⟨S65536, .i32⟩
  | .hbm, ⟨10, _⟩ => ⟨S_, .i32⟩
  | .hbm, ⟨11, _⟩ => ⟨S8192, .i32⟩
  | .hbm, ⟨12, _⟩ => ⟨S65536x1, .i32⟩
  | .hbm, ⟨13, _⟩ => ⟨S8192, .i32⟩
  | .hbm, ⟨14, _⟩ => ⟨S8192x8x128, .f32⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536x8x128, .f32⟩
  | .hbm, ⟨24, _⟩ => ⟨S_, .f32⟩
  | .hbm, ⟨25, _⟩ => ⟨S8192x8x128, .f32⟩
  | .hbm, ⟨26, _⟩ => ⟨S65536x1, .i32⟩
  | .hbm, ⟨27, _⟩ => ⟨S8192x8x128, .f32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .f32⟩
  | .hbm, ⟨32, _⟩ => ⟨S8192x1x1, .f32⟩
  | .hbm, ⟨33, _⟩ => ⟨S8192x8x128, .f32⟩
  | .hbm, ⟨34, _⟩ => ⟨S8192x8x128, .f32⟩
  | .hbm, ⟨35, _⟩ => ⟨S_, .i32⟩
  | .hbm, ⟨36, _⟩ => ⟨S65536, .i32⟩
  | .hbm, ⟨37, _⟩ => ⟨S65536, .i1⟩
  | .hbm, ⟨38, _⟩ => ⟨S_, .i32⟩
  | .hbm, ⟨39, _⟩ => ⟨S65536, .i32⟩
  | .hbm, ⟨40, _⟩ => ⟨S65536, .i32⟩
  | .hbm, ⟨41, _⟩ => ⟨S65536, .i32⟩
  | .hbm, ⟨42, _⟩ => ⟨S65536x1, .i32⟩
  | .hbm, ⟨43, _⟩ => ⟨S65536, .i32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S_, .i32⟩
  | .hbm, ⟨49, _⟩ => ⟨S65536, .i32⟩
  | .hbm, ⟨50, _⟩ => ⟨S65536, .i32⟩
  | .hbm, ⟨51, _⟩ => ⟨S_, .i32⟩
  | .hbm, ⟨52, _⟩ => ⟨S8192, .i32⟩
  | .hbm, ⟨53, _⟩ => ⟨S65536x1, .i32⟩
  | .hbm, ⟨54, _⟩ => ⟨S8192, .i32⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S_, .i32⟩
  | .hbm, ⟨67, _⟩ => ⟨S8192, .i32⟩
  | .hbm, ⟨68, _⟩ => ⟨S8192, .i1⟩
  | .hbm, ⟨69, _⟩ => ⟨S_, .i32⟩
  | .hbm, ⟨70, _⟩ => ⟨S8192, .i32⟩
  | .hbm, ⟨71, _⟩ => ⟨S8192, .i32⟩
  | .hbm, ⟨72, _⟩ => ⟨S8192, .i32⟩
  | .hbm, ⟨73, _⟩ => ⟨S8192x1, .i32⟩
  | .hbm, ⟨74, _⟩ => ⟨S8192x8x128, .f32⟩
  | .hbm, ⟨75, _⟩ => ⟨S8x8192x128, .f32⟩
  | .hbm, ⟨76, _⟩ => ⟨S1x8192x1, .i1⟩
  | .hbm, ⟨77, _⟩ => ⟨S8x8192x128, .i1⟩
  | .hbm, ⟨78, _⟩ => ⟨S8x8192x128, .f32⟩
  | .hbm, ⟨79, _⟩ => ⟨S8x8192x128, .f32⟩
  | .hbm, ⟨80, _⟩ => ⟨S8x8192x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_6 : Ref sig .tc := ⟨.hbm, 44, rfl⟩
abbrev main_v33 : Ref sig .tc := ⟨.hbm, 45, rfl⟩
abbrev main_v34 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_v35 : Ref sig .tc := ⟨.hbm, 50, rfl⟩
abbrev main_c_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_c_11 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_v41 : Ref sig .tc := ⟨.hbm, 65, rfl⟩
abbrev main_c_12 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call2_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_14 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩

abbrev nD : Nat := 1
abbrev τ : Topo := Topo.v7x

variable {F : FTy → Type} [FloatOps F]

class Facts₀ : Prop where
  slices_S2x65536_S1x65536_0_0 : S2x65536.Slices ![0, 0] S1x65536
  shapeCasts_S1x65536_S65536 : S1x65536.ShapeCasts S65536
  slices_S2x65536_S1x65536_1_0 : S2x65536.Slices ![1, 0] S1x65536
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  transposes_S8x8192x128_S8192x8x128_1_0_2 : S8x8192x128.Transposes [1, 0, 2] S8192x8x128
  bcast_S_S8192x8x128 : S_.BroadcastsInDim S8192x8x128 (![] : Fin 0 → Fin S8192x8x128.rank)
  bcast_S8192_S8192x1x1_0 : S8192.BroadcastsInDim S8192x1x1 (![0] : Fin 1 → Fin S8192x1x1.rank)
  bcast_S8192x1x1_S8192x8x128_0_1_2 : S8192x1x1.BroadcastsInDim S8192x8x128 (![0, 1, 2] : Fin 3 → Fin S8192x8x128.rank)
  bcast_S8192_S8192x1_0 : S8192.BroadcastsInDim S8192x1 (![0] : Fin 1 → Fin S8192x1.rank)
  transposes_S8192x8x128_S8x8192x128_1_0_2 : S8192x8x128.Transposes [1, 0, 2] S8x8192x128
  bcast_S8192_S1x8192x1_1 : S8192.BroadcastsInDim S1x8192x1 (![1] : Fin 1 → Fin S1x8192x1.rank)
  bcast_S1x8192x1_S8x8192x128_0_1_2 : S1x8192x1.BroadcastsInDim S8x8192x128 (![0, 1, 2] : Fin 3 → Fin S8x8192x128.rank)
  reducesTo_S8x8192x128_S_d0_1_2 : S8x8192x128.ReducesTo [0, 1, 2] S_
  h_S_ : 0 < S_.numel
  dot_S8x8192x128_S128x128_S8x8192x128_2_0_01_1_n_n_wf : DotDims.WF S8x8192x128 S128x128 S8x8192x128 [2] [0] [0, 1] [1] [] []
  scatter_S8192_S65536x1_S65536_n_0_0_1_wf : ScatterDims.WF S8192 S65536x1 S65536 [] [0] [0] 1
  gather_S8192x8x128_S65536x1_S65536x8x128_12_0_n_n_0_1_18128_wf : GatherDims.WF S8192x8x128 S65536x1 S65536x8x128 [1, 2] [0] [] [0] [] 1 ![1, 8, 128]
  scatter_S8192x8x128_S65536x1_S65536x8x128_12_0_0_1_wf : ScatterDims.WF S8192x8x128 S65536x1 S65536x8x128 [1, 2] [0] [0] 1
  gather_S8192_S65536x1_S65536_n_0_n_n_0_1_1_wf : GatherDims.WF S8192 S65536x1 S65536 [] [0] [] [0] [] 1 ![1]
  gather_S8192x8x128_S8192x1_S8192x8x128_12_0_n_n_0_1_18128_wf : GatherDims.WF S8192x8x128 S8192x1 S8192x8x128 [1, 2] [0] [] [0] [] 1 ![1, 8, 128]

variable [Facts₀]

def dot_S8x8192x128_S128x128_S8x8192x128_2_0_01_1_n_n : DotDims S8x8192x128 S128x128 S8x8192x128 where
  lhsContracting := [2]
  rhsContracting := [0]
  lhsNonContracting := [0, 1]
  rhsNonContracting := [1]
  lhsBatch := []
  rhsBatch := []
  wf := dot_S8x8192x128_S128x128_S8x8192x128_2_0_01_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x8x128_S65536x1_S65536x8x128_12_0_n_n_0_1_18128 : GatherDims S8192x8x128 S65536x1 S65536x8x128 where
  offsetDims := [1, 2]
  collapsedSliceDims := [0]
  operandBatchingDims := []
  startIndicesBatchingDims := []
  startIndexMap := [0]
  indexVectorDim := 1
  sliceSizes := ![1, 8, 128]
  wf := gather_S8192x8x128_S65536x1_S65536x8x128_12_0_n_n_0_1_18128_wf
def scatter_S8192x8x128_S65536x1_S65536x8x128_12_0_0_1 : ScatterDims S8192x8x128 S65536x1 S65536x8x128 where
  updateWindowDims := [1, 2]
  insertedWindowDims := [0]
  scatterDimsToOperandDims := [0]
  indexVectorDim := 1
  wf := scatter_S8192x8x128_S65536x1_S65536x8x128_12_0_0_1_wf
def gather_S8192_S65536x1_S65536_n_0_n_n_0_1_1 : GatherDims S8192 S65536x1 S65536 where
  offsetDims := []
  collapsedSliceDims := [0]
  operandBatchingDims := []
  startIndicesBatchingDims := []
  startIndexMap := [0]
  indexVectorDim := 1
  sliceSizes := ![1]
  wf := gather_S8192_S65536x1_S65536_n_0_n_n_0_1_1_wf
def gather_S8192x8x128_S8192x1_S8192x8x128_12_0_n_n_0_1_18128 : GatherDims S8192x8x128 S8192x1 S8192x8x128 where
  offsetDims := [1, 2]
  collapsedSliceDims := [0]
  operandBatchingDims := []
  startIndicesBatchingDims := []
  startIndexMap := [0]
  indexVectorDim := 1
  sliceSizes := ![1, 8, 128]
  wf := gather_S8192x8x128_S8192x1_S8192x8x128_12_0_n_n_0_1_18128_wf

class Facts : Prop extends Facts₀ where

variable [Facts]
-- ==== Proof.K.Data.lean ====
/-
  The proof data of the two kernel regions, at a parameter `V`: the TensorCore's buffer contents when the
  region is entered.

  Region 0 multiplies a 2048-row block of the flattened input by the whole 128 x 128 weight: after the body
  the output window's staging buffer holds the product of the two input blocks (`out0_2`).

  Region 1 adds up |a - b| over a 4096-row block of each operand into a 1 x 1 scratch cell that lives across
  the sixteen grid points: zeroed at the first point, it holds after point n the partial sum over the blocks
  0 .. n (`acc1`), and the last point copies it into the 1 x 1 output window.
-/
import proofs.«116136_j85521388798293_1_alg».proof.Proof.Gen.KernelIdeal.Launch
import proofs.«116136_j85521388798293_1_alg».proof.Proof.Gen.KernelIdeal.Skeleton
import proofs.«116136_j85521388798293_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: the matrix product of a row block -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 2048 x 128 block and the whole 128 x 128 weight as rectangles of their buffers. -/
abbrev r0_x : Rect S2048x128 := Rect.unit (s := S2048x128) ![0, 0] S2048x128.size inb_S2048x128_S2048x128_0_0
abbrev r0_w : Rect S128x128 := Rect.unit (s := S128x128) ![0, 0] S128x128.size inb_S128x128_S128x128_0_0

/-- What the body leaves in the output window's staging buffer: its one store, the product of the row block
    and the weight, laid over the whole buffer. -/
def out0_2 (x0 : Vec F S2048x128 .f32) (x1 : Vec F S128x128 .f32) : Vec F S2048x128 .f32 :=
  View.canon [⟨r0_x, k0_pay1 (View.ld x0 r0_x) (View.ld x1 r0_w)⟩]

/-- Region 0's proof data on core `c`: the arrays as entered; the inputs' buffers keep their blocks, the
    output's holds the block product; the invariant is the scoped rest and the generator register, untouched;
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## Region 1: the running sum of |a - b| -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch cell the kernel carries between points, as a whole memref. -/
abbrev scM1 : Memref sig .tc .vmem S1x1 .f32 := Memref.whole cc1_scratch0

/-- THE RUNNING SUM. What the scratch cell holds after the body at point `n`: at the first point the cell is
    zeroed and the block's sum added to that zero; at every later point the block's sum is added to what the
    point before left. -/
def acc1 (c : Dev nD) : (n : ℕ) → n < cfg1.N → Vec F S1x1 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl
theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- The scoped buffers region 1 does not stage — region 0's five staging buffers, each whole at some contents,
    and the scratch cell as `X` says — beside the generator register at some state: the shape of the class's
    invariant for this region, with the scratch cell's conjunct left open. -/
def Rest1 (c : Dev nD) (X : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ X) ∗ ∃ r, prngReg c r)

/-- The region's invariant before position `n`: before the first point the scoped rest at anything and the
    generator register; afterwards the same with the scratch cell at the running sum the point before left. -/
def Phi1 (c : Dev nD) : (n : ℕ) → n ≤ cfg1.N → sProp 𝕄
  | 0, _ => Pipeline.ΦA spec1 c
  | n + 1, hn => Rest1 c (owns (c : Thread nD τ) scM1 fullShare (acc1 V c n hn))

theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = Rest1 c (owns (c : Thread nD τ) scM1 fullShare (acc1 V c n hn)) := rfl
theorem Phi1_pos (c : Dev nD) (n : ℕ) (h : n ≤ cfg1.N) (hz : n ≠ 0) :
    Phi1 V c n h = Rest1 c (owns (c : Thread nD τ) scM1 fullShare (acc1 V c (n - 1) (by omega))) := by
  cases n with
  | zero => exact absurd rfl hz
  | succ n => rfl

/-- Region 1's proof data on core `c`: the arrays as entered; the inputs' buffers keep their blocks; the
    output window's buffer, stored only at the last point, is named by the running sum; the invariant carries
    the scratch cell; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem Phi1_castSucc (c : Dev nD) (t : Fin cfg1.N) :
    (dat1 V c).Φ t.castSucc = Phi1 V c t.val (Nat.le_of_lt t.isLt) := by
  dsimp only [dat1]; simp only [Fin.coe_castSucc]

end Regions

end Cert.KernelIdeal.Hand

end
-- ==== Proof.K.Fold.lean ====
/-
  What every unscoped buffer of a core holds at each boundary between two items of the program: the launch
  contents, then each host stretch applied in turn, and at a kernel region's exit the region's arrays at what
  its write-backs leave (the inputs as entered, the output with every flushed block written in).
-/
import proofs.«116136_j85521388798293_1_alg».proof.Proof.K.Data
import proofs.«116136_j85521388798293_1_alg».proof.Proof.Gen.KernelIdeal.Regions
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At launch. -/
abbrev W0 (c : Dev nD) : Valuation τ sig (Elt F) := fun b => m (c, b)
/-- After the first host stretch (the flattening of the input): region 0's entry. -/
abbrev W1 (c : Dev nD) : Valuation τ sig (Elt F) := StableHlo.after hostOps0 (W0 m c)
/-- The same read at the TensorCore's references: what region 0's proof data take. -/
abbrev E0 (c : Dev nD) (b : Ref sig .tc) : Buf (Elt F) ((c : Thread nD τ).loc b) := W1 m c b
/-- At region 0's exit: its arrays at what the pipeline leaves, every other buffer as entered. -/
def W2 (c : Dev nD) : Valuation τ sig (Elt F) :=
  Pipeline.withArrays spec0 c (W1 m c) fun w => (dat0 (E0 m) c).arrAt w cfg0.N
/-- After each of the seven host stretches between the regions. -/
abbrev W3 (c : Dev nD) : Valuation τ sig (Elt F) := StableHlo.after hostOps1 (W2 m c)
abbrev W4 (c : Dev nD) : Valuation τ sig (Elt F) := StableHlo.after hostOps1_1 (W3 m c)
abbrev W5 (c : Dev nD) : Valuation τ sig (Elt F) := StableHlo.after hostOps1_2 (W4 m c)
abbrev W6 (c : Dev nD) : Valuation τ sig (Elt F) := StableHlo.after hostOps1_3 (W5 m c)
abbrev W7 (c : Dev nD) : Valuation τ sig (Elt F) := StableHlo.after hostOps1_4 (W6 m c)
abbrev W8 (c : Dev nD) : Valuation τ sig (Elt F) := StableHlo.after hostOps1_5 (W7 m c)
/-- Region 1's entry. -/
abbrev W9 (c : Dev nD) : Valuation τ sig (Elt F) := StableHlo.after hostOps1_6 (W8 m c)
abbrev E1 (c : Dev nD) (b : Ref sig .tc) : Buf (Elt F) ((c : Thread nD τ).loc b) := W9 m c b
/-- At region 1's exit. -/
def W10 (c : Dev nD) : Valuation τ sig (Elt F) :=
  Pipeline.withArrays spec1 c (W9 m c) fun w => (dat1 (E1 m) c).arrAt w cfg1.N
/-- After the last host stretch: the contents the program returns with. -/
abbrev W11 (c : Dev nD) : Valuation τ sig (Elt F) := StableHlo.after hostOps2 (W10 m c)

theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb

end Cert.KernelIdeal.Hand

end
-- ==== Proof.K.Region0.lean ====
/-
  Region 0's body at a grid point: it loads the row block and the weight, multiplies them and stores the
  product over the whole output block; the input buffers are left as found.
-/
import proofs.«116136_j85521388798293_1_alg».proof.Proof.K.Data
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## What the body finds in the two input buffers

Both inputs are left in place by the body, are never idle and are not cut at the arrays' ends. Such a window's
current buffer holds the block its index map names at the point, whether the pipeline moved it there at this
point or at an earlier one: where there is no fetch the block index has not changed since the last one. The row
block (window 0) is fetched at every point; the weight (window 1) only at the first, its index map being
constant. -/

/-- The row block's buffer holds the point's 2048 rows of the flattened input. -/
theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  have hkeep : ∀ s, (cfg0.win 0).cut (cfg0.grid.coords s) (dat.after 0 s) = dat.blockOf 0 s := by
    intro s
    rw [hafter s]
    unfold Dat.blockOf iblk0
    rw [hA]
    try rfl
  rw [dat.before_in_eq_fetched 0 rfl (fun _ => rfl) (fun _ _ _ => rfl) hkeep t d]
  unfold Dat.fetched Dat.blockOf iblk0
  rw [hA]
  try rfl

/-- The weight's buffer holds the whole 128 x 128 weight at every point, though it is moved there only once. -/
theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  have hkeep : ∀ s, (cfg0.win 1).cut (cfg0.grid.coords s) (dat.after 1 s) = dat.blockOf 1 s := by
    intro s
    rw [hafter s]
    unfold Dat.blockOf iblk0
    rw [hA]
    try rfl
  rw [dat.before_in_eq_fetched 1 rfl (fun _ => rfl) (fun _ _ _ => rfl) hkeep t d]
  unfold Dat.fetched Dat.blockOf iblk0
  rw [hA]
  try rfl

theorem before0_0 (c : Dev nD) (t : Fin cfg0.N) (d) : (dat0 V c).before 0 t d = iblk0 V c 0 t :=
  before0_0_of V (dat0 V c) (A_eq0 V c 0) (after0_0 V c) t d

theorem before0_1 (c : Dev nD) (t : Fin cfg0.N) (d) : (dat0 V c).before 1 t d = iblk0 V c 1 t :=
  before0_1_of V (dat0 V c) (A_eq0 V c 1) (after0_1 V c) t d

/-! ## The one store covers the output buffer -/

/-- The product is stored through the rectangle of the whole 2048 x 128 buffer, so every index of the buffer
    lies in the one piece written. -/
theorem cover0_2 (p : Vec F S2048x128 .f32) (y : S2048x128.Idx) :
    ∃ pc ∈ ([⟨r0_x, p⟩] : List (View.Piece (Elt F) S2048x128 .f32)), y ∈ pc.1.set :=
  View.cover_of_tiled [⟨r0_x, p⟩] S2048x128.size (by rfl) y

/-! ## The body on whole memrefs -/

set_option maxHeartbeats 1000000 in
/-- The body on three whole staging memrefs, the inputs' reading `x0` and `x1` and the output's holding anything:
    it reads the row block and the weight, reads the output buffer without using what it read, and overwrites the
    whole output buffer with the product of the two values read. The inputs' memrefs are returned as found. -/
theorem sound_kernel0 (c : Dev nD) (E : Set ℕ) (i : grid0.Coords)
    (arg1 : Memref sig .tc .vmem S2048x128 .f32) (harg1 : arg1.IsWhole)
    (arg2 : Memref sig .tc .vmem S128x128 .f32) (harg2 : arg2.IsWhole)
    (arg3 : Memref sig .tc .vmem S2048x128 .f32) (harg3 : arg3.IsWhole)
    (x0 : Vec F S2048x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E
          (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body at a grid point -/

/-- What the body is handed at point `t`: the invariant, the core's owes, and the three windows' current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back: the same invariant and owes, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- At any point the two input buffers hold the point's row block and the weight, and the output buffer holds
    something; the body's triple on whole memrefs then gives the product in the output buffer. The invariant
    and the owes are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every grid point. -/
theorem body_obligation0 (c : Dev nD) : BodyObligation (dat0 (F := F) V c) (defs₀ (F := F)) Variants.none () Set.univ := by
  intro t
  rw [bigSep_W0, bigSep_W0]
  exact sound_body0 V c t

end Regions

end Cert.KernelIdeal.Hand

end
-- ==== Proof.K.Region1.lean ====
/-
  Region 1's body at a grid point: at the first point it zeroes the scratch cell; at every point it adds the
  block's sum of |a - b| to the cell; at the last point it copies the cell into the output window.
-/
import proofs.«116136_j85521388798293_1_alg».proof.Proof.K.Data
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The body's two conditionals, in closed form over the grid -/

/-- The first conditional's test (zero the scratch cell): the grid coordinate is zero. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The second conditional's test (copy the cell into the result): the grid coordinate is the last. -/
abbrev cond1_1 (i : grid1.Coords) : Prop := k1_cond2 i = 1#1
/-- It holds at the last point only. -/
theorem hcond1_1 : ∀ t : Fin cfg1.N, cond1_1 (grid1.coords t) ↔ t.val = 15 :=
  (by decide +kernel : ∀ t : Fin grid1.N, cond1_1 (grid1.coords t) ↔ t.val = 15)

/-- The offsets of every load and store of the body are zero. -/
theorem hz2 : (![0, 0] : Fin 2 → Nat) = fun _ => 0 := funext fun a => by fin_cases a <;> rfl

/-! ## The body's triple, case by case

On whole memrefs — the two operand blocks at `x0`, `x1`, the result buffer at `d3`, the scratch cell at `xs` —
the body runs to the continuation holding the operands as they were and the cell at the block's sum of
|x0 - x1| added to what the cell held when the sum was taken. Every store goes through the whole 1 x 1 cell, so
what a buffer reads afterwards is the last payload stored into it; a load of the cell after a store in the same
run reads that store's payload. -/

set_option maxHeartbeats 1000000 in
/-- THE FIRST POINT (first conditional taken, second not): the cell is zeroed, whatever it held, and the
    block's sum is added to that zero; the result buffer is untouched. -/
theorem run1_A (c : Dev nD) (i : grid1.Coords)
    (arg1 : Memref sig .tc .vmem S4096x128 .f32) (harg1 : arg1.IsWhole)
    (arg2 : Memref sig .tc .vmem S4096x128 .f32) (harg2 : arg2.IsWhole)
    (arg3 : Memref sig .tc .vmem S1x1 .f32) (harg3 : arg3.IsWhole)
    (arg4 : Memref sig .tc .vmem S1x1 .f32) (harg4 : arg4.IsWhole) (hc0 : cond1_0 i) (hc1 : ¬cond1_1 i)
    (x0 x1 : Vec F S4096x128 .f32) (d3 xs : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare xs
        ∗ (iprop(owns (c : Thread nD τ) arg1 fullShare x0 ∗ owns (c : Thread nD τ) arg2 fullShare x1
            ∗ owns (c : Thread nD τ) arg3 fullShare (d3) ∗ owns (c : Thread nD τ) arg4 fullShare (k1_pay2 x0 x1 (k1_pay1 (F := F)))) -∗ K ⟨⟩))
      ⊢ wp frame (wpE (defs₀ (F := F)) Variants.none c none) E (cc1__absdiff_sum_kernel i arg1 harg1 arg2 harg2 arg3 harg3 arg4 harg4) K := by
  simp only [cc1__absdiff_sum_kernel_eq_skeleton]; unfold cc1__absdiff_sum_kernel_skel
  unfold owns
  iintro ⟨⟨%f0, %hf0, H0⟩, ⟨%f1, %hf1, H1⟩, ⟨%f3, %hf3, H3⟩, ⟨%fs, %hfs, HS⟩, Hk⟩
  obtain rfl := harg1.eq_unread hf0; obtain rfl := harg2.eq_unread hf1
  obtain rfl := harg3.eq_unread hf3; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1

  isplitl [H3]
  · iexists _; isplitr; · ipureintro; exact hf3
    iexact H3
  iexists _; isplitr
  swap; · iexact HS
  ipureintro
  sl_unfold_words
  rw [View.read_writes_eq_canon _ _ _ (fun y => ⟨_, List.mem_cons_self, View.mem_set_unit_zero (S := S1x1) hz2 inb_S1x1_S1x1_0_0 y⟩)]
  rw [View.canon_cons_unit_zero (S := S1x1) hz2]
  simp only [View.readAt_eq_ld, hf0, hf1, View.ld_unit_zero (S := S4096x128) hz2, View.readCov_unit_zero (S := S1x1) _ hz2]

set_option maxHeartbeats 1000000 in
/-- A POINT BETWEEN (neither conditional taken): the block's sum is added to what the cell held; the
    result buffer is untouched. -/
theorem run1_B (c : Dev nD) (i : grid1.Coords)
    (arg1 : Memref sig .tc .vmem S4096x128 .f32) (harg1 : arg1.IsWhole)
    (arg2 : Memref sig .tc .vmem S4096x128 .f32) (harg2 : arg2.IsWhole)
    (arg3 : Memref sig .tc .vmem S1x1 .f32) (harg3 : arg3.IsWhole)
    (arg4 : Memref sig .tc .vmem S1x1 .f32) (harg4 : arg4.IsWhole) (hc0 : ¬cond1_0 i) (hc1 : ¬cond1_1 i)
    (x0 x1 : Vec F S4096x128 .f32) (d3 xs : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare xs
        ∗ (iprop(owns (c : Thread nD τ) arg1 fullShare x0 ∗ owns (c : Thread nD τ) arg2 fullShare x1
            ∗ owns (c : Thread nD τ) arg3 fullShare (d3) ∗ owns (c : Thread nD τ) arg4 fullShare (k1_pay2 x0 x1 xs)) -∗ K ⟨⟩))
      ⊢ wp frame (wpE (defs₀ (F := F)) Variants.none c none) E (cc1__absdiff_sum_kernel i arg1 harg1 arg2 harg2 arg3 harg3 arg4 harg4) K := by
  simp only [cc1__absdiff_sum_kernel_eq_skeleton]; unfold cc1__absdiff_sum_kernel_skel
  unfold owns
  iintro ⟨⟨%f0, %hf0, H0⟩, ⟨%f1, %hf1, H1⟩, ⟨%f3, %hf3, H3⟩, ⟨%fs, %hfs, HS⟩, Hk⟩
  obtain rfl := harg1.eq_unread hf0; obtain rfl := harg2.eq_unread hf1
  obtain rfl := harg3.eq_unread hf3; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1

  isplitl [H3]
  · iexists _; isplitr; · ipureintro; exact hf3
    iexact H3
  iexists _; isplitr
  swap; · iexact HS
  ipureintro
  rw [View.read_writes_eq_canon _ _ _ (fun y => ⟨_, List.mem_singleton_self _, View.mem_set_unit_zero (S := S1x1) hz2 inb_S1x1_S1x1_0_0 y⟩)]
  rw [View.canon_unit_zero hz2]
  simp only [View.readAt_eq_ld, hf0, hf1, hfs, View.ld_unit_zero (S := S4096x128) hz2, View.ld_unit_zero (S := S1x1) hz2]

set_option maxHeartbeats 1000000 in
/-- THE LAST POINT (second conditional taken, first not): the block's sum is added to what the cell held,
    and the cell's new contents are stored over the whole result buffer, whatever it held. -/
theorem run1_C (c : Dev nD) (i : grid1.Coords)
    (arg1 : Memref sig .tc .vmem S4096x128 .f32) (harg1 : arg1.IsWhole)
    (arg2 : Memref sig .tc .vmem S4096x128 .f32) (harg2 : arg2.IsWhole)
    (arg3 : Memref sig .tc .vmem S1x1 .f32) (harg3 : arg3.IsWhole)
    (arg4 : Memref sig .tc .vmem S1x1 .f32) (harg4 : arg4.IsWhole) (hc0 : ¬cond1_0 i) (hc1 : cond1_1 i)
    (x0 x1 : Vec F S4096x128 .f32) (d3 xs : Vec F S1x1 .f32) (E : Set ℕ) (K : PUnit → sProp 𝕄) :
    iprop(owns (c : Thread nD τ) arg1 fullShare x0 ∗ owns (c : Thread nD τ) arg2 fullShare x1
        ∗ owns (c : Thread nD τ) arg3 fullShare d3 ∗ owns (c : Thread nD τ) arg4 fullShare xs
        ∗ (iprop(owns (c : Thread nD τ) arg1 fullShare x0 ∗ owns (c : Thread nD τ) arg2 fullShare x1
            ∗ owns (c : Thread nD τ) arg3 fullShare (k1_pay2 x0 x1 xs) ∗ owns (c : Thread nD τ) arg4 fullShare (k1_pay2 x0 x1 xs)) -∗ K ⟨⟩))
      ⊢ wp frame (wpE (defs₀ (F := F)) Variants.none c none) E (cc1__absdiff_sum_kernel i arg1 harg1 arg2 harg2 arg3 harg3 arg4 harg4) K := by
  simp only [cc1__absdiff_sum_kernel_eq_skeleton]; unfold cc1__absdiff_sum_kernel_skel
  unfold owns
  iintro ⟨⟨%f0, %hf0, H0⟩, ⟨%f1, %hf1, H1⟩, ⟨%f3, %hf3, H3⟩, ⟨%fs, %hfs, HS⟩, Hk⟩
  obtain rfl := harg1.eq_unread hf0; obtain rfl := harg2.eq_unread hf1
  obtain rfl := harg3.eq_unread hf3; obtain rfl := harg4.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1

  isplitl [H3]
  · iexists _; isplitr
    swap; · iexact H3
    ipureintro
    sl_unfold_words
    rw [View.read_writes_eq_canon _ _ _ (fun y => ⟨_, List.mem_singleton_self _, View.mem_set_unit_zero (S := S1x1) hz2 inb_S1x1_S1x1_0_0 y⟩)]
    rw [View.canon_unit_zero hz2]
    simp only [View.readAt_eq_ld, hf0, hf1, hfs, View.ld_unit_zero (S := S4096x128) hz2, View.ld_unit_zero (S := S1x1) hz2, View.readCov_unit_zero (S := S1x1) _ hz2]
  iexists _; isplitr
  swap; · iexact HS
  ipureintro
  sl_unfold_words
  rw [View.read_writes_eq_canon _ _ _ (fun y => ⟨_, List.mem_singleton_self _, View.mem_set_unit_zero (S := S1x1) hz2 inb_S1x1_S1x1_0_0 y⟩)]
  rw [View.canon_unit_zero hz2]
  simp only [View.readAt_eq_ld, hf0, hf1, hfs, View.ld_unit_zero (S := S4096x128) hz2, View.ld_unit_zero (S := S1x1) hz2]

/-! ## Where the windows are idle -/

/-- The two operand windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Off the last point the result window is idle and not written back; at the last point it is live. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The operand windows hold their blocks -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

/-! ## The running sum at a point, by whether it is the first -/

theorem acc1_first (c : Dev nD) (t : Fin cfg1.N) (h : t.val = 0) :
    acc1 V c t.val t.isLt = k1_pay2 (iblk1 V c 0 t) (iblk1 V c 1 t) (k1_pay1 (F := F)) := by
  obtain ⟨n, hn⟩ := t
  cases n with
  | zero => rfl
  | succ n => exact absurd h (Nat.succ_ne_zero n)

theorem acc1_later (c : Dev nD) (t : Fin cfg1.N) (h : t.val ≠ 0) :
    acc1 V c t.val t.isLt
      = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-! ## The invariant's frame -/

/-- What the invariant holds beside the scratch cell: region 0's staging buffers and the generator register. -/
def Others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ r, prngReg c r))

/-- The invariant's shape is the scratch cell's conjunct beside that frame. -/
theorem Rest1_eq (c : Dev nD) (X : sProp 𝕄) : Rest1 (F := F) c X = iprop(X ∗ Others1 (F := F) c) := by
  have h₁ : Rest1 (F := F) c X ⊢ iprop(X ∗ Others1 (F := F) c) := by
    unfold Rest1 Others1
    iintro ⟨⟨R0, R1, R2, R3, R4, HX⟩, Hg⟩
    isplitl [HX]; · iexact HX
    isplitl [R0]; · iexact R0
    isplitl [R1]; · iexact R1
    isplitl [R2]; · iexact R2
    isplitl [R3]; · iexact R3
    isplitl [R4]; · iexact R4
    iexact Hg
  have h₂ : iprop(X ∗ Others1 (F := F) c) ⊢ Rest1 (F := F) c X := by
    unfold Rest1 Others1
    iintro ⟨HX, R0, R1, R2, R3, R4, Hg⟩
    isplitr [Hg]
    · isplitl [R0]; · iexact R0
      isplitl [R1]; · iexact R1
      isplitl [R2]; · iexact R2
      isplitl [R3]; · iexact R3
      isplitl [R4]; · iexact R4
      iexact HX
    iexact Hg
  exact BI.equiv_iff.mp ⟨h₁, h₂⟩

/-- The class's invariant with the scratch cell as a memref owned at some contents. -/
theorem PhiA1_eq (c : Dev nD) :
    (Pipeline.ΦA spec1 c : sProp 𝕄)
      = Rest1 c (iprop(∃ d, owns (c : Thread nD τ) scM1 fullShare d)) := by
  unfold Pipeline.ΦA Rest1; rw [scopedRest1_eq]; simp only [scM1, owns_whole]; try rfl

/-! ## The body obligation at a point -/

/-- Each window's current staging memref at point `t`, as the pipeline passes it to the body. -/
abbrev ms1_0 (t : Fin cfg1.N) : Memref sig .tc .vmem S4096x128 .f32 := win1_0.stage (cfg1.slots t 0)
abbrev ms1_1 (t : Fin cfg1.N) : Memref sig .tc .vmem S4096x128 .f32 := win1_1.stage (cfg1.slots t 1)
abbrev ms1_2 (t : Fin cfg1.N) : Memref sig .tc .vmem S1x1 .f32 := win1_2.stage (cfg1.slots t 2)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operand buffers hold their blocks; the point is the first, the last or one
    between, and the matching triple applies: the invariant hands over the scratch cell (at anything at the
    first point, at the running sum of the point before otherwise) and takes it back at this point's running
    sum; off the last point the result buffer goes back as it came, at the last point it holds the total. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, Rest1_eq]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 16 := lt_of_lt_of_eq t.isLt (show cfg1.N = 16 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 2 t (idleAt1_2 t hc1) (noFlush1_2 t hc1)]
    rw [acc1_first V c t h0]
    rw [Phi1_castSucc V c t, Phi1_zero V c _ _ h0, PhiA1_eq, Rest1_eq]
    iintro ⟨⟨⟨%ds, HS⟩, HR⟩, Ho, ⟨%d0, H0⟩, ⟨%d1, H1⟩, ⟨%d2, H2⟩⟩
    iapply (run1_A c (grid1.coords t) _ _ _ _ _ _ _ _ hc0 hc1 (iblk1 V c 0 t) (iblk1 V c 1 t) _ ds Set.univ _)
    isplitl [H0]; · iexact H0
    isplitl [H1]; · iexact H1
    isplitl [H2]; · iexact H2
    isplitl [HS]; · iexact HS
    iintro ⟨H0, H1, H2, HS⟩
    isplitl [HS HR]
    · isplitl [HS]; · iexact HS
      iexact HR
    isplitl [Ho]; · iexact Ho
    isplitl [H0]; · iexact H0
    isplitl [H1]; · iexact H1
    iexists _; iexact H2
  · have hc0 : ¬cond1_0 (grid1.coords t) := fun h => h0 ((hcond1_0 t).mp h)
    rw [acc1_later V c t h0]
    rw [Phi1_castSucc V c t, Phi1_pos V c _ _ h0, Rest1_eq]
    by_cases h1 : t.val = 15
    · have hc1 : cond1_1 (grid1.coords t) := (hcond1_1 t).mpr h1
      rw [show (dat1 V c).leavesExact 2 t = owns (c : Thread nD τ) (ms1_2 t) fullShare ((dat1 V c).after 2 t) from by
        unfold Dat.leavesExact; rw [liveAt1_2 t hc1], after1_2, acc1_later V c t h0]
      iintro ⟨⟨HS, HR⟩, Ho, ⟨%d0, H0⟩, ⟨%d1, H1⟩, ⟨%d2, H2⟩⟩
      iapply (run1_C c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · have hc1 : ¬cond1_1 (grid1.coords t) := fun h => h1 ((hcond1_1 t).mp h)
      rw [Dat.leavesExact_idle (dat1 V c) 2 t (idleAt1_2 t hc1) (noFlush1_2 t hc1)]
      iintro ⟨⟨HS, HR⟩, Ho, ⟨%d0, H0⟩, ⟨%d1, H1⟩, ⟨%d2, H2⟩⟩
      iapply (run1_B c (grid1.coords t) _ _ _ _ _ _ _ _ hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The library's body obligation for region 1, at every grid point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 (F := F) V c).Φ 0 := by
  rw [show (dat1 V c).Φ 0 = Phi1 V c 0 (Nat.zero_le _) from rfl, Phi1_zero V c 0 _ rfl]

/-- After the last point the invariant gives the class's back: the cell's named contents are forgotten. -/
theorem hout1 (c : Dev nD) : (dat1 (F := F) V c).Φ (Fin.last cfg1.N) ⊢ Pipeline.ΦA spec1 c := by
  have hne : (Fin.last cfg1.N).val ≠ 0 := by rw [Fin.val_last]; have : cfg1.N = 16 := N_1; omega
  rw [show (dat1 V c).Φ (Fin.last cfg1.N) = Phi1 V c (Fin.last cfg1.N).val (Nat.le_of_lt_succ (Fin.last cfg1.N).isLt) from rfl,
    Phi1_pos V c _ _ hne, PhiA1_eq, Rest1_eq, Rest1_eq]
  iintro ⟨HS, HR⟩
  isplitl [HS]
  · iexists _; iexact HS
  iexact HR

end Regions

end Cert.KernelIdeal.Hand

end
-- ==== Proof.K.Segs.lean ====
/-
  The whole program as host stretches and kernel regions run in order: every weakly fair execution ends, and
  every unscoped buffer ends at the contents the fold names.
-/
import proofs.«116136_j85521388798293_1_alg».proof.Proof.K.Fold
import proofs.«116136_j85521388798293_1_alg».proof.Proof.K.Region0
import proofs.«116136_j85521388798293_1_alg».proof.Proof.K.Region1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a region leaves, read at the TensorCore's references -/

/-- Region 0's exit contents. -/
abbrev X0 (c : Dev nD) (b : Ref sig .tc) : Buf (Elt F) ((c : Thread nD τ).loc b) := W2 m c b
/-- Region 1's exit contents. -/
abbrev X1 (c : Dev nD) (b : Ref sig .tc) : Buf (Elt F) ((c : Thread nD τ).loc b) := W10 m c b

/-- At region 0's exit each of its arrays holds what the write-backs leave, -/
theorem hF0 (c : Dev nD) (w : Fin cfg0.W) : (dat0 (E0 m) c).arrAt w cfg0.N = X0 m c (Pipeline.arrRef spec0 w) :=
  (W2_arr m c w).symm
/-- and every buffer that is no array of the region what it held at entry. -/
theorem hrest0 (c : Dev nD) : ∀ b, b ∉ Finset.univ.image (Pipeline.arrRef spec0) → X0 m c b = E0 m c b :=
  fun b hb => W2_of_ne m c b fun w e => hb (Finset.mem_image.mpr ⟨w, Finset.mem_univ _, e⟩)
/-- The same two facts at region 1's exit. -/
theorem hF1 (c : Dev nD) (w : Fin cfg1.W) : (dat1 (E1 m) c).arrAt w cfg1.N = X1 m c (Pipeline.arrRef spec1 w) :=
  (W10_arr m c w).symm
theorem hrest1 (c : Dev nD) : ∀ b, b ∉ Finset.univ.image (Pipeline.arrRef spec1) → X1 m c b = E1 m c b :=
  fun b hb => W10_of_ne m c b fun w e => hb (Finset.mem_image.mpr ⟨w, Finset.mem_univ _, e⟩)

/-! ## The proof data of both pipelines and the thread state -/

/-- Each pipeline's proof data at its region's entry contents: region 0 is entered from the first boundary of the
    fold, region 1 from the ninth. -/
def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between any two items: its generator register at some state and the
    record that it owes nothing. -/
abbrev R (c : Dev nD) : sProp 𝕄 := iprop((∃ r, prngReg c r) ∗ ∃ W, owes (c : Thread nD τ) (0 : CellTallies nD τ sig Unit) W)
/-- A host stretch over every unscoped buffer from the contents `W`: it ends at `StableHlo.after ops (W c)`, which is
    by definition the fold's next boundary; `R` is untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the record of what is owed: every unscoped buffer at the fold's last boundary,
    the generator register at some state. -/
abbrev Tₙ (c : Dev nD) : sProp 𝕄 := iprop(StableHlo.held (c : Thread nD τ) (Pipeline.ucRefs τ sig) (W11 m c) ∗ ∃ r, prngReg c r)

/-! ## The two regions as items -/

set_option backward.isDefEq.respectTransparency.types false in
/-- Region 0, entered from every unscoped buffer at `W1` and left at `W2`. Its three arrays are split out of the
    unscoped buffers at entry and put back at the exit contents; the generator register goes into the invariant
    beside the scoped buffers no window stages and comes back; nothing is owed at any point. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `W9` and left at `W10`. Its invariant is not the same at every
    point: before the first point it is the scoped buffers no window stages (the scratch cell among them, at
    anything) beside the generator register; after a point it names the scratch cell's running sum. So the entry
    assembles the first form and steps into the region's invariant at position 0, and the exit forgets the cell's
    contents before handing the scoped buffers back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its eleven items, and the launch -/

/-- The program's items in order: the flattening of the input; region 0; the seven host stretches that build the
    aggregate; region 1; the final division. Each host stretch starts from the boundary the item before it ends at. -/
abbrev items : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .host (hseg hostOps1_3 hostOps1_3_sub hostOps1_3_fresh (W5 m)),
    .host (hseg hostOps1_4 hostOps1_4_sub hostOps1_4_fresh (W6 m)),
    .host (hseg hostOps1_5 hostOps1_5_sub hostOps1_5_fresh (W7 m)),
    .host (hseg hostOps1_6 hostOps1_6_sub hostOps1_6_fresh (W8 m)),
    .region (reg1 m),
    .host (hseg hostOps2 hostOps2_sub hostOps2_fresh (W10 m)) ]

set_option backward.isDefEq.respectTransparency.types false in
/-- Every weakly fair execution of the program from `m` with zero counters terminates, and every unscoped
    TensorCore buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (items m)
    (fun c Q => by
      rewrite [main_chain c, Pipeline.Seg.run_eq_chain,
        show (items m).map Pipeline.Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2 ] from rfl]
      exact .rfl)
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        -- the last stretch ends at the buffers and `R`; the register joins the buffers, the owing record stands alone
        show iprop(StableHlo.held (c : Thread nD τ) (Pipeline.ucRefs τ sig) (W11 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Hand

end
-- ==== Proof.K.Args.lean ====
/-
  The argument arrays at the last boundary: no host operation writes an argument and no kernel region's
  write-back touches one (a region reads an argument through an input window or not at all), so the contents
  walk back through every boundary to the launch memory.
-/
import proofs.«116136_j85521388798293_1_alg».proof.Proof.K.Fold
import Idealize.ShloMosaic.Lib.StableHlo.Run
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ hostOps1_1_W) : W4 m c (Proc.devRef .tc r) = W3 m c (Proc.devRef .tc r) :=
  StableHlo.after_of_writes_sub hostOps1_1 _ hostOps1_1_writes h
theorem W5_of (c : Dev nD) (r : Ref sig .tc) (h : r ∉ hostOps1_2_W) : W5 m c (Proc.devRef .tc r) = W4 m c (Proc.devRef .tc r) :=
  StableHlo.after_of_writes_sub hostOps1_2 _ hostOps1_2_writes h
theorem W6_of (c : Dev nD) (r : Ref sig .tc) (h : r ∉ hostOps1_3_W) : W6 m c (Proc.devRef .tc r) = W5 m c (Proc.devRef .tc r) :=
  StableHlo.after_of_writes_sub hostOps1_3 _ hostOps1_3_writes h
theorem W7_of (c : Dev nD) (r : Ref sig .tc) (h : r ∉ hostOps1_4_W) : W7 m c (Proc.devRef .tc r) = W6 m c (Proc.devRef .tc r) :=
  StableHlo.after_of_writes_sub hostOps1_4 _ hostOps1_4_writes h
theorem W8_of (c : Dev nD) (r : Ref sig .tc) (h : r ∉ hostOps1_5_W) : W8 m c (Proc.devRef .tc r) = W7 m c (Proc.devRef .tc r) :=
  StableHlo.after_of_writes_sub hostOps1_5 _ hostOps1_5_writes h
theorem W9_of (c : Dev nD) (r : Ref sig .tc) (h : r ∉ hostOps1_6_W) : W9 m c (Proc.devRef .tc r) = W8 m c (Proc.devRef .tc r) :=
  StableHlo.after_of_writes_sub hostOps1_6 _ hostOps1_6_writes h
theorem W11_of (c : Dev nD) (r : Ref sig .tc) (h : r ∉ hostOps2_W) : W11 m c (Proc.devRef .tc r) = W10 m c (Proc.devRef .tc r) :=
  StableHlo.after_of_writes_sub hostOps2 _ hostOps2_writes h

/-- A reference that is no array of either region and that no host stretch writes ends as launched. -/
theorem W11_kept (c : Dev nD) (r : Ref sig .tc) (h0 : ∀ w, Pipeline.arrRef spec0 w ≠ r) (h1 : ∀ w, Pipeline.arrRef spec1 w ≠ r)
    (g0 : r ∉ hostOps0_W) (g1 : r ∉ hostOps1_W) (g2 : r ∉ hostOps1_1_W) (g3 : r ∉ hostOps1_2_W) (g4 : r ∉ hostOps1_3_W)
    (g5 : r ∉ hostOps1_4_W) (g6 : r ∉ hostOps1_5_W) (g7 : r ∉ hostOps1_6_W) (g8 : r ∉ hostOps2_W) :
    W11 m c (Proc.devRef .tc r) = m ((c : Thread nD τ).loc r) :=
  calc W11 m c (Proc.devRef .tc r)
    _ = W10 m c (Proc.devRef .tc r) := W11_of m c r g8
    _ = W9 m c (Proc.devRef .tc r) := W10_of_ne m c r h1
    _ = W8 m c (Proc.devRef .tc r) := W9_of m c r g7
    _ = W7 m c (Proc.devRef .tc r) := W8_of m c r g6
    _ = W6 m c (Proc.devRef .tc r) := W7_of m c r g5
    _ = W5 m c (Proc.devRef .tc r) := W6_of m c r g4
    _ = W4 m c (Proc.devRef .tc r) := W5_of m c r g3
    _ = W3 m c (Proc.devRef .tc r) := W4_of m c r g2
    _ = W2 m c (Proc.devRef .tc r) := W3_of m c r g1
    _ = W1 m c (Proc.devRef .tc r) := W2_of_ne m c r h0
    _ = W0 m c (Proc.devRef .tc r) := W1_of m c r g0
    _ = m ((c : Thread nD τ).loc r) := rfl

/-- The index argument is no array of either region. -/
theorem W11_arg1 (c : Dev nD) : W11 m c (Proc.devRef .tc main_arg1) = m ((c : Thread nD τ).loc main_arg1) :=
  W11_kept m c main_arg1 (by decide) (by decide) (by decide) (by decide) (by decide) (by decide) (by decide) (by decide) (by decide) (by decide) (by decide)

/-- The weight is region 0's second input window's array: an input array is never written. -/
theorem W11_arg2 (c : Dev nD) : W11 m c (Proc.devRef .tc main_arg2) = m ((c : Thread nD τ).loc main_arg2) :=
  calc W11 m c (Proc.devRef .tc main_arg2)
    _ = W10 m c (Proc.devRef .tc main_arg2) := W11_of m c _ (by decide)
    _ = W9 m c (Proc.devRef .tc main_arg2) := W10_of_ne m c _ (by decide)
    _ = W8 m c (Proc.devRef .tc main_arg2) := W9_of m c _ (by decide)
    _ = W7 m c (Proc.devRef .tc main_arg2) := W8_of m c _ (by decide)
    _ = W6 m c (Proc.devRef .tc main_arg2) := W7_of m c _ (by decide)
    _ = W5 m c (Proc.devRef .tc main_arg2) := W6_of m c _ (by decide)
    _ = W4 m c (Proc.devRef .tc main_arg2) := W5_of m c _ (by decide)
    _ = W3 m c (Proc.devRef .tc main_arg2) := W4_of m c _ (by decide)
    _ = W2 m c (Proc.devRef .tc main_arg2) := W3_of m c _ (by decide)
    _ = W1 m c (Proc.devRef .tc main_arg2) := (W2_arr m c 1).trans (((dat0 (E0 m) c).arrAt_in 1 rfl _).trans (A_eq0 (E0 m) c 1))
    _ = W0 m c (Proc.devRef .tc main_arg2) := W1_of m c _ (by decide)
    _ = m ((c : Thread nD τ).loc main_arg2) := rfl

/-- The input is read only by the first host stretch (its flattening). -/
theorem W11_arg0 (c : Dev nD) : W11 m c (Proc.devRef .tc main_arg0) = m ((c : Thread nD τ).loc main_arg0) :=
  W11_kept m c main_arg0 (by decide) (by decide) (by decide) (by decide) (by decide) (by decide) (by decide) (by decide) (by decide) (by decide) (by decide)

/-- An unscoped TensorCore reference is among those the last boundary names. -/
theorem mem_uc' (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.K.Chain.lean ====
/-
  The host operations between the two kernel regions, as ONE function of the product array `xt` and the
  index array `idx`: per hyperedge the count of its entries and the sum of the gathered rows of `xt`, their
  quotient (the mean), per node the largest eligible hyperedge, and the selection between that hyperedge's mean
  and the node's own row. The kernel's program and the reference apply exactly these operations, so the
  certificate never opens them: it shows the two arrays going in equal.
-/
import proofs.«116136_j85521388798293_1_alg».proof.Proof.Gen.KernelIdeal

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

set_option maxRecDepth 16384 in
/-- The aggregated array from the product and the indices. -/
def aggOf (xt : (⟨S8x8192x128, .f32⟩ : BufTy).Contents (Elt F)) (idx : (⟨S2x65536, .i32⟩ : BufTy).Contents (Elt F)) :
    (⟨S8x8192x128, .f32⟩ : BufTy).Contents (Elt F) :=
  select (broadcastInDim S8x8192x128 ![0, 1, 2] bcast_S1x8192x1_S8x8192x128_0_1_2 (broadcastInDim S1x8192x1 ![1] bcast_S8192_S1x8192x1_1 (cmpi .sge (Host.scatter scatter_S8192_S65536x1_S65536_n_0_0_1 IntOp.maxsi (broadcastInDim S8192 ![] bcast_S_S8192 (constantI S_ 32 2147483648#32)) (broadcastInDim S65536x1 ![0] bcast_S65536_S65536x1_0 (shapeCast _ (extractStridedSlice S1x65536 ![0, 0] idx slices_S2x65536_S1x65536_0_0) shapeCasts_S1x65536_S65536)) (select (cmpi .sgt (Host.gather gather_S8192_S65536x1_S65536_n_0_n_n_0_1_1 (Host.scatter scatter_S8192_S65536x1_S65536_n_0_0_1 IntOp.addi (broadcastInDim S8192 ![] bcast_S_S8192 (constantI S_ 32 0#32)) (broadcastInDim S65536x1 ![0] bcast_S65536_S65536x1_0 (shapeCast _ (extractStridedSlice S1x65536 ![1, 0] idx slices_S2x65536_S1x65536_1_0) shapeCasts_S1x65536_S65536)) (broadcastInDim S65536 ![] bcast_S_S65536 (constantI S_ 32 1#32))) (broadcastInDim S65536x1 ![0] bcast_S65536_S65536x1_0 (select (cmpi .slt (shapeCast _ (extractStridedSlice S1x65536 ![1, 0] idx slices_S2x65536_S1x65536_1_0) shapeCasts_S1x65536_S65536) (broadcastInDim S65536 ![] bcast_S_S65536 (constantI S_ 32 0#32))) (addi (shapeCast _ (extractStridedSlice S1x65536 ![1, 0] idx slices_S2x65536_S1x65536_1_0) shapeCasts_S1x65536_S65536) (broadcastInDim S65536 ![] bcast_S_S65536 (constantI S_ 32 8192#32))) (shapeCast _ (extractStridedSlice S1x65536 ![1, 0] idx slices_S2x65536_S1x65536_1_0) shapeCasts_S1x65536_S65536)))) (broadcastInDim S65536 ![] bcast_S_S65536 (constantI S_ 32 1#32))) (shapeCast _ (extractStridedSlice S1x65536 ![1, 0] idx slices_S2x65536_S1x65536_1_0) shapeCasts_S1x65536_S65536) (broadcastInDim S65536 ![] bcast_S_S65536 (id (constantI S_ 32 4294967295#32))))) (broadcastInDim S8192 ![] bcast_S_S8192 (constantI S_ 32 0#32))))) (transpose S8x8192x128 [1, 0, 2] (Host.gather gather_S8192x8x128_S8192x1_S8192x8x128_12_0_n_n_0_1_18128 (Host.divf (Host.scatterAdd scatter_S8192x8x128_S65536x1_S65536x8x128_12_0_0_1 (broadcastInDim S8192x8x128 ![] bcast_S_S8192x8x128 (constant S_ .f32 0x00000000#32)) (broadcastInDim S65536x1 ![0] bcast_S65536_S65536x1_0 (shapeCast _ (extractStridedSlice S1x65536 ![1, 0] idx slices_S2x65536_S1x65536_1_0) shapeCasts_S1x65536_S65536)) (Host.gather gather_S8192x8x128_S65536x1_S65536x8x128_12_0_n_n_0_1_18128 (transpose S8192x8x128 [1, 0, 2] xt transposes_S8x8192x128_S8192x8x128_1_0_2) (broadcastInDim S65536x1 ![0] bcast_S65536_S65536x1_0 (select (cmpi .slt (shapeCast _ (extractStridedSlice S1x65536 ![0, 0] idx slices_S2x65536_S1x65536_0_0) shapeCasts_S1x65536_S65536) (broadcastInDim S65536 ![] bcast_S_S65536 (constantI S_ 32 0#32))) (addi (shapeCast _ (extractStridedSlice S1x65536 ![0, 0] idx slices_S2x65536_S1x65536_0_0) shapeCasts_S1x65536_S65536) (broadcastInDim S65536 ![] bcast_S_S65536 (constantI S_ 32 8192#32))) (shapeCast _ (extractStridedSlice S1x65536 ![0, 0] idx slices_S2x65536_S1x65536_0_0) shapeCasts_S1x65536_S65536))))) (broadcastInDim S8192x8x128 ![0, 1, 2] bcast_S8192x1x1_S8192x8x128_0_1_2 (broadcastInDim S8192x1x1 ![0] bcast_S8192_S8192x1x1_0 (sitofp .f32 (maxsi (Host.scatter scatter_S8192_S65536x1_S65536_n_0_0_1 IntOp.addi (broadcastInDim S8192 ![] bcast_S_S8192 (constantI S_ 32 0#32)) (broadcastInDim S65536x1 ![0] bcast_S65536_S65536x1_0 (shapeCast _ (extractStridedSlice S1x65536 ![1, 0] idx slices_S2x65536_S1x65536_1_0) shapeCasts_S1x65536_S65536)) (broadcastInDim S65536 ![] bcast_S_S65536 (constantI S_ 32 1#32))) (broadcastInDim S8192 ![] bcast_S_S8192 (constantI S_ 32 1#32))))))) (broadcastInDim S8192x1 ![0] bcast_S8192_S8192x1_0 (select (cmpi .slt (minsi (broadcastInDim S8192 ![] bcast_S_S8192 (id (constantI S_ 32 8191#32))) (maxsi (broadcastInDim S8192 ![] bcast_S_S8192 (id (constantI S_ 32 0#32))) (Host.scatter scatter_S8192_S65536x1_S65536_n_0_0_1 IntOp.maxsi (broadcastInDim S8192 ![] bcast_S_S8192 (constantI S_ 32 2147483648#32)) (broadcastInDim S65536x1 ![0] bcast_S65536_S65536x1_0 (shapeCast _ (extractStridedSlice S1x65536 ![0, 0] idx slices_S2x65536_S1x65536_0_0) shapeCasts_S1x65536_S65536)) (select (cmpi .sgt (Host.gather gather_S8192_S65536x1_S65536_n_0_n_n_0_1_1 (Host.scatter scatter_S8192_S65536x1_S65536_n_0_0_1 IntOp.addi (broadcastInDim S8192 ![] bcast_S_S8192 (constantI S_ 32 0#32)) (broadcastInDim S65536x1 ![0] bcast_S65536_S65536x1_0 (shapeCast _ (extractStridedSlice S1x65536 ![1, 0] idx slices_S2x65536_S1x65536_1_0) shapeCasts_S1x65536_S65536)) (broadcastInDim S65536 ![] bcast_S_S65536 (constantI S_ 32 1#32))) (broadcastInDim S65536x1 ![0] bcast_S65536_S65536x1_0 (select (cmpi .slt (shapeCast _ (extractStridedSlice S1x65536 ![1, 0] idx slices_S2x65536_S1x65536_1_0) shapeCasts_S1x65536_S65536) (broadcastInDim S65536 ![] bcast_S_S65536 (constantI S_ 32 0#32))) (addi (shapeCast _ (extractStridedSlice S1x65536 ![1, 0] idx slices_S2x65536_S1x65536_1_0) shapeCasts_S1x65536_S65536) (broadcastInDim S65536 ![] bcast_S_S65536 (constantI S_ 32 8192#32))) (shapeCast _ (extractStridedSlice S1x65536 ![1, 0] idx slices_S2x65536_S1x65536_1_0) shapeCasts_S1x65536_S65536)))) (broadcastInDim S65536 ![] bcast_S_S65536 (constantI S_ 32 1#32))) (shapeCast _ (extractStridedSlice S1x65536 ![1, 0] idx slices_S2x65536_S1x65536_1_0) shapeCasts_S1x65536_S65536) (broadcastInDim S65536 ![] bcast_S_S65536 (id (constantI S_ 32 4294967295#32))))))) (broadcastInDim S8192 ![] bcast_S_S8192 (constantI S_ 32 0#32))) (addi (minsi (broadcastInDim S8192 ![] bcast_S_S8192 (id (constantI S_ 32 8191#32))) (maxsi (broadcastInDim S8192 ![] bcast_S_S8192 (id (constantI S_ 32 0#32))) (Host.scatter scatter_S8192_S65536x1_S65536_n_0_0_1 IntOp.maxsi (broadcastInDim S8192 ![] bcast_S_S8192 (constantI S_ 32 2147483648#32)) (broadcastInDim S65536x1 ![0] bcast_S65536_S65536x1_0 (shapeCast _ (extractStridedSlice S1x65536 ![0, 0] idx slices_S2x65536_S1x65536_0_0) shapeCasts_S1x65536_S65536)) (select (cmpi .sgt (Host.gather gather_S8192_S65536x1_S65536_n_0_n_n_0_1_1 (Host.scatter scatter_S8192_S65536x1_S65536_n_0_0_1 IntOp.addi (broadcastInDim S8192 ![] bcast_S_S8192 (constantI S_ 32 0#32)) (broadcastInDim S65536x1 ![0] bcast_S65536_S65536x1_0 (shapeCast _ (extractStridedSlice S1x65536 ![1, 0] idx slices_S2x65536_S1x65536_1_0) shapeCasts_S1x65536_S65536)) (broadcastInDim S65536 ![] bcast_S_S65536 (constantI S_ 32 1#32))) (broadcastInDim S65536x1 ![0] bcast_S65536_S65536x1_0 (select (cmpi .slt (shapeCast _ (extractStridedSlice S1x65536 ![1, 0] idx slices_S2x65536_S1x65536_1_0) shapeCasts_S1x65536_S65536) (broadcastInDim S65536 ![] bcast_S_S65536 (constantI S_ 32 0#32))) (addi (shapeCast _ (extractStridedSlice S1x65536 ![1, 0] idx slices_S2x65536_S1x65536_1_0) shapeCasts_S1x65536_S65536) (broadcastInDim S65536 ![] bcast_S_S65536 (constantI S_ 32 8192#32))) (shapeCast _ (extractStridedSlice S1x65536 ![1, 0] idx slices_S2x65536_S1x65536_1_0) shapeCasts_S1x65536_S65536)))) (broadcastInDim S65536 ![] bcast_S_S65536 (constantI S_ 32 1#32))) (shapeCast _ (extractStridedSlice S1x65536 ![1, 0] idx slices_S2x65536_S1x65536_1_0) shapeCasts_S1x65536_S65536) (broadcastInDim S65536 ![] bcast_S_S65536 (id (constantI S_ 32 4294967295#32))))))) (broadcastInDim S8192 ![] bcast_S_S8192 (constantI S_ 32 8192#32))) (minsi (broadcastInDim S8192 ![] bcast_S_S8192 (id (constantI S_ 32 8191#32))) (maxsi (broadcastInDim S8192 ![] bcast_S_S8192 (id (constantI S_ 32 0#32))) (Host.scatter scatter_S8192_S65536x1_S65536_n_0_0_1 IntOp.maxsi (broadcastInDim S8192 ![] bcast_S_S8192 (constantI S_ 32 2147483648#32)) (broadcastInDim S65536x1 ![0] bcast_S65536_S65536x1_0 (shapeCast _ (extractStridedSlice S1x65536 ![0, 0] idx slices_S2x65536_S1x65536_0_0) shapeCasts_S1x65536_S65536)) (select (cmpi .sgt (Host.gather gather_S8192_S65536x1_S65536_n_0_n_n_0_1_1 (Host.scatter scatter_S8192_S65536x1_S65536_n_0_0_1 IntOp.addi (broadcastInDim S8192 ![] bcast_S_S8192 (constantI S_ 32 0#32)) (broadcastInDim S65536x1 ![0] bcast_S65536_S65536x1_0 (shapeCast _ (extractStridedSlice S1x65536 ![1, 0] idx slices_S2x65536_S1x65536_1_0) shapeCasts_S1x65536_S65536)) (broadcastInDim S65536 ![] bcast_S_S65536 (constantI S_ 32 1#32))) (broadcastInDim S65536x1 ![0] bcast_S65536_S65536x1_0 (select (cmpi .slt (shapeCast _ (extractStridedSlice S1x65536 ![1, 0] idx slices_S2x65536_S1x65536_1_0) shapeCasts_S1x65536_S65536) (broadcastInDim S65536 ![] bcast_S_S65536 (constantI S_ 32 0#32))) (addi (shapeCast _ (extractStridedSlice S1x65536 ![1, 0] idx slices_S2x65536_S1x65536_1_0) shapeCasts_S1x65536_S65536) (broadcastInDim S65536 ![] bcast_S_S65536 (constantI S_ 32 8192#32))) (shapeCast _ (extractStridedSlice S1x65536 ![1, 0] idx slices_S2x65536_S1x65536_1_0) shapeCasts_S1x65536_S65536)))) (broadcastInDim S65536 ![] bcast_S_S65536 (constantI S_ 32 1#32))) (shapeCast _ (extractStridedSlice S1x65536 ![1, 0] idx slices_S2x65536_S1x65536_1_0) shapeCasts_S1x65536_S65536) (broadcastInDim S65536 ![] bcast_S_S65536 (id (constantI S_ 32 4294967295#32)))))))))) transposes_S8192x8x128_S8x8192x128_1_0_2) xt

end Cert.KernelIdeal.Hand

end
-- ==== Proof.K.Results.lean ====
/-
  What the program returns, read off the last boundary's contents: the first result is the host chain's
  function of the product array (region 0's output, back in its three-axis form) and the index argument; the
  second result is the quotient by 2^23 of region 1's one-cell output, and region 1's two input arrays are the
  flattened first result and the flattened product.
-/
import proofs.«116136_j85521388798293_1_alg».proof.Proof.K.Args
import proofs.«116136_j85521388798293_1_alg».proof.Proof.K.Chain
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- Region 0's input arrays as entered: the flattened input, and the weight as launched. -/
theorem E0_v0 (c : Dev nD) :
    E0 m c main_v0 = shapeCast _ (m ((c : Thread nD τ).loc main_arg0)) shapeCasts_S8x8192x128_S65536x128 := by
  show W1 m c (Proc.devRef .tc main_v0) = _
  dsimp only [W1, W0, hostOps0]
  after_results_simp
  rfl
theorem E0_arg2 (c : Dev nD) : E0 m c main_arg2 = m ((c : Thread nD τ).loc main_arg2) :=
  (W1_of m c main_arg2 (by decide)).trans rfl

/-- The index argument at region 0's exit is the launch's. -/
theorem W2_arg1 (c : Dev nD) : W2 m c (Proc.devRef .tc main_arg1) = m ((c : Thread nD τ).loc main_arg1) :=
  (W2_of_ne m c main_arg1 (by decide)).trans ((W1_of m c main_arg1 (by decide)).trans rfl)

/-- The product array — region 0's output — back in its three-axis form. -/
def xt3 (c : Dev nD) : (⟨S8x8192x128, .f32⟩ : BufTy).Contents (Elt F) :=
  shapeCast _ (W2 m c (Proc.devRef .tc main_v1)) shapeCasts_S65536x128_S8x8192x128

set_option maxRecDepth 100000 in
set_option maxHeartbeats 8000000 in
/-- The first result before region 1: the host chain's function of the product array and the indices. The
    operations' results are read in one pass, the inlined callees' typed-reference casts removed as they appear. -/
theorem W8_v53 (c : Dev nD) :
    W8 m c (Proc.devRef .tc main_v53) = aggOf (xt3 m c) (m ((c : Thread nD τ).loc main_arg1)) := by
  rw [← W2_arg1 m c]
  unfold xt3 aggOf
  dsimp only [W8, W7, W6, W5, W4, W3, hostOps1, hostOps1_1, hostOps1_2, hostOps1_3, hostOps1_4, hostOps1_5]
  generalize W2 m c = V2
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq]
  rfl

set_option maxRecDepth 100000 in
set_option maxHeartbeats 8000000 in
/-- The three-axis product as the host stretch after region 0 names it. -/
theorem W8_v2 (c : Dev nD) : W8 m c (Proc.devRef .tc main_v2) = xt3 m c := by
  rw [W8_of m c main_v2 (by decide), W7_of m c main_v2 (by decide), W6_of m c main_v2 (by decide),
    W5_of m c main_v2 (by decide), W4_of m c main_v2 (by decide)]
  unfold xt3
  dsimp only [W3, hostOps1]
  generalize W2 m c = V2
  simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.ofBuf, TRef.toBuf, cast_eq]
  rfl

/-- Region 1's input arrays as entered: the flattened first result and the flattened product. -/
theorem E1_v54 (c : Dev nD) :
    E1 m c main_v54 = shapeCast _ (aggOf (xt3 m c) (m ((c : Thread nD τ).loc main_arg1))) shapeCasts_S8x8192x128_S65536x128 := by
  show W9 m c (Proc.devRef .tc main_v54) = _
  rw [← W8_v53 m c]
  dsimp only [W9, hostOps1_6]
  generalize W8 m c = V8
  after_results_simp
  rfl
theorem E1_v55 (c : Dev nD) :
    E1 m c main_v55 = shapeCast _ (xt3 m c) shapeCasts_S8x8192x128_S65536x128 := by
  show W9 m c (Proc.devRef .tc main_v55) = _
  rw [← W8_v2 m c]
  dsimp only [W9, hostOps1_6]
  generalize W8 m c = V8
  after_results_simp
  rfl

/-- The first result at the end: nothing after the host chain writes it. -/
theorem W11_v53 (c : Dev nD) :
    W11 m c (Proc.devRef .tc main_v53) = aggOf (xt3 m c) (m ((c : Thread nD τ).loc main_arg1)) :=
  calc W11 m c (Proc.devRef .tc main_v53)
    _ = W10 m c (Proc.devRef .tc main_v53) := W11_of m c _ (by decide)
    _ = W9 m c (Proc.devRef .tc main_v53) := W10_of_ne m c _ (by decide)
    _ = W8 m c (Proc.devRef .tc main_v53) := W9_of m c _ (by decide)
    _ = _ := W8_v53 m c

/-- The second result at the end: region 1's one-cell output, as a rank-0 array, divided by 2^23. -/
theorem W11_v58 (c : Dev nD) :
    W11 m c (Proc.devRef .tc main_v58)
      = Host.divf (shapeCast _ ((dat1 (E1 m) c).arrAt 2 cfg1.N) shapeCasts_S1x1_S_) (constant S_ .f32 0x4B000000#32) := by
  rw [← W10_arr m c 2]
  dsimp only [W11, hostOps2]
  generalize W10 m c = V10
  after_results_simp
  rfl

end Cert.KernelIdeal.Hand

end
-- ==== Proof.K.Spec.lean ====
/-
  The two closed forms the kernel regions compute, over the extended reals.

  `xtFlat x w` is the product of a 65536 x 128 matrix with a 128 x 128 matrix, entry by entry the sum over
  the shared axis. `absDiffTotal a b` is the one-cell array holding the sum of |a - b| over every entry of
  two 65536 x 128 matrices (|y| = max y (-y) on the extended reals).
-/
import Idealize.ShloMosaic.PureOps.Ideal
import Idealize.ShloMosaic.Lib.ValueIdx

noncomputable section

namespace Cert.Spec

open Idealize.ShloMosaic Idealize.ShloMosaic.ValueIdx

/-- The flattened product: entry (i, j) is the sum over k of x(i, k) * w(k, j). -/
def xtFlat (x : (⟨2, ![65536, 128]⟩ : Shape).Idx → EReal) (w : (⟨2, ![128, 128]⟩ : Shape).Idx → EReal) :
    (⟨2, ![65536, 128]⟩ : Shape).Idx → EReal :=
  fun i => ∑ k : Fin 128, x (ix2 (i 0) k) * w (ix2 k (i 1))

/-- The sum of |a - b| over all entries, as the single cell of a 1 x 1 array. -/
def absDiffTotal (a b : (⟨2, ![65536, 128]⟩ : Shape).Idx → EReal) : (⟨2, ![1, 1]⟩ : Shape).Idx → EReal :=
  fun _ => ∑ i : (⟨2, ![65536, 128]⟩ : Shape).Idx, max (a i - b i) (-(a i - b i))

end Cert.Spec

end
-- ==== Proof.K.Value0.lean ====
/-
  Region 0's output array after the run, at the extended reals: the 32 written-back blocks tile the 65536 x 128
  array, and block t holds rows 2048 t .. 2048 t + 2047 of the product of the flattened input with the weight
  (a change of float format is the identity, and a product into a zero accumulator is the plain sum).
-/
import proofs.«116136_j85521388798293_1_alg».proof.Proof.K.Data
import proofs.«116136_j85521388798293_1_alg».proof.Proof.K.Spec
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The product of a row block with the weight, entry by entry -/

/-- The zero offsets of a whole-buffer rectangle. -/
theorem off_zero_mm : (![0, 0] : Fin 2 → Nat) = fun _ => 0 := funext fun a => by fin_cases a <;> rfl

/-- The left operand's row coordinate is the output's row. -/
theorem lhs_blockdot_0 (j : S2048x128.Idx) (q : dot_S2048x128_S128x128_S2048x128_1_0_0_1_n_n.contr.Idx) :
    (dot_S2048x128_S128x128_S2048x128_1_0_0_1_n_n.lhsIdx j q 0).val = (j 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- The left operand's column coordinate is the summation index. -/
theorem lhs_blockdot_1 (j : S2048x128.Idx) (q : dot_S2048x128_S128x128_S2048x128_1_0_0_1_n_n.contr.Idx) :
    (dot_S2048x128_S128x128_S2048x128_1_0_0_1_n_n.lhsIdx j q 1).val = (q ⟨0, by decide⟩).val :=
  dot_S2048x128_S128x128_S2048x128_1_0_0_1_n_n.lhsIdx_val_of_single rfl j q
/-- The weight's row coordinate is the summation index. -/
theorem rhs_blockdot_0 (j : S2048x128.Idx) (q : dot_S2048x128_S128x128_S2048x128_1_0_0_1_n_n.contr.Idx) :
    (dot_S2048x128_S128x128_S2048x128_1_0_0_1_n_n.rhsIdx j q 0).val = (q ⟨0, by decide⟩).val :=
  dot_S2048x128_S128x128_S2048x128_1_0_0_1_n_n.rhsIdx_val_of_single rfl j q
/-- The weight's column coordinate is the output's column. -/
theorem rhs_blockdot_1 (j : S2048x128.Idx) (q : dot_S2048x128_S128x128_S2048x128_1_0_0_1_n_n.contr.Idx) :
    (dot_S2048x128_S128x128_S2048x128_1_0_0_1_n_n.rhsIdx j q 1).val = (j 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- THE BLOCK PRODUCT AT AN ENTRY. Over the extended reals the change of float format does nothing and the zero
    accumulator drops, so entry (p, q) of the body's result is the sum over k of x(p, k) * w(k, q). -/
theorem blockprod_apply (x : Vec Ideal S2048x128 .f32) (w : Vec Ideal S128x128 .f32) (p : Fin 2048) (q : Fin 128) :
    k0_pay1 (F := Ideal) x w (ix2 p q) = ∑ k : Fin 128, x (ix2 p k) * w (ix2 k q) := by
  unfold k0_pay1
  rw [shapeCast_self]
  show FloatOps.matmul dot_S2048x128_S128x128_S2048x128_1_0_0_1_n_n none (truncf .bf16 x bitsLt_bf16_f32) (truncf .bf16 w bitsLt_bf16_f32) (constant (F := Ideal) S2048x128 .f32 0x00000000#32) (ix2 p q) = _
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [truncf_apply, truncf_apply, el, er]

section Regions
variable (V : (c : Dev nD) → (b : Ref sig .tc) → Buf (Elt Ideal) ((c : Thread nD τ).loc b))

/-! ## From the 32 blocks to the array -/

/-- The index maps over the 32 points: at point t the input's block and the output's block are row block t
    (column block 0), and the weight's block is the whole weight. -/
theorem blockidx_mm : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of block t is row 2048 t + p of the array. -/
def rowOf_mm (t : Fin cfg0.N) (p : Fin 2048) : Fin 65536 :=
  ⟨t.val * 2048 + p.val, by have ht : t.val < 32 := lt_of_lt_of_eq t.isLt N_0; have hp := p.isLt; omega⟩

/-- Where an entry of the input's block at point t sits in the flattened input. -/
theorem emb_in_mm (t : Fin cfg0.N) (p : Fin 2048) (k : Fin 128) :
    ((cfg0.win 0).blk t).view.emb (ix2 p k) = ix2 (rowOf_mm t p) k := by
  obtain ⟨e0, e1, -, -, -, -⟩ := blockidx_mm t
  funext a; apply Fin.ext
  match a with
  | ⟨0, _⟩ => show win0_0.index t (0 : Fin 2) * 2048 + 1 * p.val = t.val * 2048 + p.val; rw [e0]; omega
  | ⟨1, _⟩ => show win0_0.index t (1 : Fin 2) * 128 + 1 * k.val = k.val; rw [e1]; omega

/-- The weight's block at every point is the weight. -/
theorem emb_wt_mm (t : Fin cfg0.N) (k : Fin 128) (q : Fin 128) :
    ((cfg0.win 1).blk t).view.emb (ix2 k q) = ix2 k q := by
  obtain ⟨-, -, e2, e3, -, -⟩ := blockidx_mm t
  funext a; apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Where an entry of the output's block at point t sits in the output array. -/
theorem emb_out_mm (t : Fin cfg0.N) (p : Fin 2048) (q : Fin 128) :
    ((cfg0.win 2).blk t).view.emb (ix2 p q) = ix2 (rowOf_mm t p) q := by
  obtain ⟨-, -, -, -, e4, e5⟩ := blockidx_mm t
  funext a; apply Fin.ext
  match a with
  | ⟨0, _⟩ => show win0_2.index t (0 : Fin 2) * 2048 + 1 * p.val = t.val * 2048 + p.val; rw [e4]; omega
  | ⟨1, _⟩ => show win0_2.index t (1 : Fin 2) * 128 + 1 * q.val = q.val; rw [e5]; omega

/-- An entry of the input's block at point t, read off the flattened input. -/
theorem iblk_in_mm (c : Dev nD) (t : Fin cfg0.N) (p : Fin 2048) (k : Fin 128) :
    iblk0 V c 0 t (ix2 p k) = V c main_v0 (ix2 (rowOf_mm t p) k) := by
  show V c main_v0 (((cfg0.win 0).blk t).view.emb (ix2 p k)) = V c main_v0 (ix2 (rowOf_mm t p) k)
  rw [emb_in_mm]

/-- An entry of the weight's block at point t, read off the weight. -/
theorem iblk_wt_mm (c : Dev nD) (t : Fin cfg0.N) (k : Fin 128) (q : Fin 128) :
    iblk0 V c 1 t (ix2 k q) = V c main_arg2 (ix2 k q) := by
  show V c main_arg2 (((cfg0.win 1).blk t).view.emb (ix2 k q)) = V c main_arg2 (ix2 k q)
  rw [emb_wt_mm]

/-- WHAT POINT t WRITES BACK is block t of the whole product. -/
theorem flushed_mm_eq (c : Dev nD) (t : Fin cfg0.N) :
    (dat0 (F := Ideal) V c).flushed 2 t
      = ((cfg0.win 2).blk t).view.read (Elt Ideal) (Cert.Spec.xtFlat (V c main_v0) (V c main_arg2)) := by
  show (cfg0.win 2).cut (grid0.coords t) ((dat0 V c).after 2 t) = _
  rw [after0_2]
  unfold out0_2
  rw [View.canon_unit_zero off_zero_mm]
  simp only [View.ld_unit_zero (S := S2048x128) off_zero_mm, View.ld_unit_zero (S := S128x128) off_zero_mm]
  funext j
  obtain ⟨p, q, rfl⟩ : ∃ (p : Fin 2048) (q : Fin 128), j = ix2 p q := ⟨j 0, j 1, eq_ix2 j⟩
  show k0_pay1 (F := Ideal) (iblk0 V c 0 t) (iblk0 V c 1 t) (ix2 p q)
      = Cert.Spec.xtFlat (V c main_v0) (V c main_arg2) (((cfg0.win 2).blk t).view.emb (ix2 p q))
  rw [blockprod_apply, emb_out_mm]
  unfold Cert.Spec.xtFlat
  refine Finset.sum_congr rfl fun k _ => ?_
  rw [iblk_in_mm, iblk_wt_mm]

/-- An index of the output array lies in point t's block iff each coordinate lies in the block's range on its axis. -/
theorem mem_blk_mm (t : Fin cfg0.N) (i : S65536x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v1).slice (win0_2.rect t)).set ↔ _
  rw [View.set_slice_whole, Rect.mem_set_unit]
  exact Iff.rfl

/-- THE 32 BLOCKS TILE THE ARRAY: row r lies in the block of point r / 2048, and every point writes back. -/
theorem cover_mm (i : S65536x128.Idx) :
    ∃ t : Fin cfg0.N, (cfg0.win 2).flush t = true ∧ i ∈ ((cfg0.win 2).blk t).view.set := by
  have hi0 : (i 0).val < 65536 := (i 0).isLt
  have hi1 : (i 1).val < 128 := (i 1).isLt
  obtain ⟨t, ht⟩ : ∃ t : Fin cfg0.N, t.val = (i 0).val / 2048 :=
    ⟨⟨(i 0).val / 2048, by rw [show cfg0.N = 32 from N_0]; omega⟩, rfl⟩
  obtain ⟨-, -, -, -, e4, e5⟩ := blockidx_mm t
  refine ⟨t, flush0_2 t, ?_⟩
  rw [mem_blk_mm]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 128 ≤ (i 1).val ∧ (i 1).val < win0_2.index t (1 : Fin 2) * 128 + 128
    rw [e5]; omega

/-- After all 32 points the output array is the whole product. -/
theorem arr0_eq (c : Dev nD) :
    (dat0 (F := Ideal) V c).arrAt 2 cfg0.N = Cert.Spec.xtFlat (V c main_v0) (V c main_arg2) := by
  exact (dat0 V c).arrAt_eq_of_cover 2 (Cert.Spec.xtFlat (V c main_v0) (V c main_arg2))
    (fun t _ => flushed_mm_eq V c t) cover_mm

end Regions

end Cert.KernelIdeal.Hand

end
-- ==== Proof.K.Value1.lean ====
/-
  Region 1's output cell after the run, at the extended reals: the running sum after the last point is the sum
  of |a - b| over all sixteen 4096-row blocks, that is over every entry of the two arrays (addition on the
  extended reals is associative and commutative, and the zero the cell starts from is neutral).
-/
import proofs.«116136_j85521388798293_1_alg».proof.Proof.K.Data
import proofs.«116136_j85521388798293_1_alg».proof.Proof.K.Spec
import Idealize.ShloMosaic.Lib.Pipeline.Value
import Idealize.ShloMosaic.Lib.ValueIdx
import Idealize.ShloMosaic.PureOps.Ideal.Laws
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

section Regions
variable (V : (c : Dev nD) → (b : Ref sig .tc) → Buf (Elt Ideal) ((c : Thread nD τ).loc b))

/-! ## One point's arithmetic, over the extended reals -/

/-- The sum of |a - b| over one 4096 x 128 block (|y| = max y (-y)). -/
def blockSum_ad (x0 x1 : Vec Ideal S4096x128 .f32) : EReal :=
  ∑ r : Fin 4096, ∑ l : Fin 128, max (x0 (ix2 r l) - x1 (ix2 r l)) (-(x0 (ix2 r l) - x1 (ix2 r l)))

/-- The cell the first point starts from is zero. -/
theorem zero_cell_ad (j : S1x1.Idx) : k1_pay1 (F := Ideal) j = 0 := by
  unfold k1_pay1
  refine (congrFun (shapeCast_self _ _) j).trans ?_
  exact Ideal.ofBits_zero_f32

/-- The lane reduction of a block at row r: the sum over the 128 lanes. -/
theorem lanes_ad (v : FVec Ideal S4096x128 .f32) (r : Fin 4096) :
    multiReduction (F := Ideal) .add [1] S4096 v 0x00000000#32 reduces_S4096x128_S4096 (.inl rfl) rfl (ix1 r)
      = ∑ l : Fin 128, v (ix2 r l) := by
  refine (Ideal.multiReduction_add_single v _ reduces_S4096x128_S4096 (.inl rfl) rfl (ix1 r)).trans ?_
  refine Finset.sum_congr rfl fun l _ => congrArg v ?_
  funext a
  match a with
  | ⟨0, _⟩ => rfl
  | ⟨1, _⟩ => rfl

/-- The row reduction of a 4096 x 1 column: the sum over the 4096 rows. -/
theorem rows_ad (v : FVec Ideal S4096x1 .f32) (k : S1.Idx) :
    multiReduction (F := Ideal) .add [0] S1 v 0x00000000#32 reduces_S4096x1_S1 (.inl rfl) rfl k
      = ∑ r : Fin 4096, v (ix2 r 0) := by
  refine (Ideal.multiReduction_add_single v _ reduces_S4096x1_S1 (.inl rfl) rfl k).trans ?_
  refine Finset.sum_congr rfl fun r _ => congrArg v ?_
  funext a
  match a with
  | ⟨0, _⟩ => rfl
  | ⟨1, h1⟩ => exact Fin.ext (Nat.lt_one_iff.mp (reduces_S4096x1_S1.lift k r ⟨1, h1⟩).isLt)

/-- The body's update of the scratch cell: what it held plus the block's sum of |a - b|. -/
theorem update_cell_ad (x0 x1 : Vec Ideal S4096x128 .f32) (acc : Vec Ideal S1x1 .f32) (j : S1x1.Idx) :
    k1_pay2 (F := Ideal) x0 x1 acc j = acc j + blockSum_ad x0 x1 := by
  unfold k1_pay2
  dsimp only
  refine (congrFun (shapeCast_self _ _) j).trans ?_
  refine (addf_apply _ _ j).trans ?_
  refine congrArg (acc j + ·) ?_
  refine (shapeCast_addUnit_apply ![1] _ shapeCasts_S1_S1x1 j).trans ?_
  refine (rows_ad _ _).trans ?_
  unfold blockSum_ad
  refine Finset.sum_congr rfl fun r _ => ?_
  refine (shapeCast_apply _ shapeCasts_S4096_S4096x1 (ix2 r 0) (ix1 r) ?_).trans ?_
  · rw [Shape.rowMajor_val_one, Shape.rowMajor_val_two]
    show r.val = r.val * 1 + 0
    omega
  refine (lanes_ad _ r).trans ?_
  refine Finset.sum_congr rfl fun l _ => ?_
  rw [shapeCast_self, shapeCast_self]
  rfl

/-! ## Sixteen row blocks make the array -/

/-- A sum over the 65536 rows, taken sixteen blocks of 4096 rows at a time. -/
theorem sum_rows_blocks_ad {M : Type*} [AddCommMonoid M] (g : Fin 65536 → M) :
    ∑ t : Fin 16, ∑ r : Fin 4096, g ⟨4096 * t.val + r.val, by omega⟩ = ∑ a : Fin 65536, g a := by
  rw [← Fintype.sum_prod_type (f := fun p : Fin 16 × Fin 4096 => g ⟨4096 * p.1.val + p.2.val, by omega⟩)]
  refine Fintype.sum_equiv (finProdFinEquiv (m := 16) (n := 4096)) _ g fun p => congrArg g (Fin.ext ?_)
  show 4096 * p.1.val + p.2.val = p.2.val + 4096 * p.1.val
  omega

/-- A sum over the sixteen blocks, their rows and their lanes is the sum over every entry of the array. -/
theorem sum_blocks_ad {M : Type*} [AddCommMonoid M] (f : (⟨2, ![65536, 128]⟩ : Shape).Idx → M) :
    ∑ t : Fin 16, ∑ r : Fin 4096, ∑ l : Fin 128, f (ix2 (⟨4096 * t.val + r.val, by omega⟩ : Fin 65536) l) = ∑ i, f i := by
  rw [sum_idx2 f]
  exact sum_rows_blocks_ad fun a => ∑ l : Fin 128, f (ix2 a l)

/-! ## The blocks of the two operands -/

/-- The two operand arrays of the region as 65536 x 128 arrays of extended reals, and their blocks at a point
    as 4096 x 128 blocks. -/
abbrev arrA_ad (c : Dev nD) : Vec Ideal S65536x128 .f32 := V c main_v54
abbrev arrB_ad (c : Dev nD) : Vec Ideal S65536x128 .f32 := V c main_v55
abbrev blkA_ad (c : Dev nD) (t : Fin cfg1.N) : Vec Ideal S4096x128 .f32 := iblk1 V c 0 t
abbrev blkB_ad (c : Dev nD) (t : Fin cfg1.N) : Vec Ideal S4096x128 .f32 := iblk1 V c 1 t

/-- Both operands' blocks at point t start at row block t, lane block 0. -/
theorem idx_facts_ad : ∀ t : Fin cfg1.N, win1_0.index t 0 = t.val ∧ win1_0.index t 1 = 0
    ∧ win1_1.index t 0 = t.val ∧ win1_1.index t 1 = 0 :=
  (by decide +kernel : ∀ t : Fin grid1.N, win1_0.index t 0 = t.val ∧ win1_0.index t 1 = 0
    ∧ win1_1.index t 0 = t.val ∧ win1_1.index t 1 = 0)

theorem pt_lt_ad (t : Fin cfg1.N) : t.val < 16 := lt_of_lt_of_eq t.isLt N_1

/-- Entry (r, l) of the first operand's block at point t is entry (4096 t + r, l) of the array. -/
theorem blkA_apply_ad (c : Dev nD) (t : Fin cfg1.N) (r : Fin 4096) (l : Fin 128) :
    blkA_ad V c t (ix2 r l) = arrA_ad V c (ix2 (⟨4096 * t.val + r.val, by have := pt_lt_ad t; omega⟩ : Fin 65536) l) := by
  obtain ⟨h0, h1, -, -⟩ := idx_facts_ad t
  show iblk1 V c 0 t (ix2 r l) = _
  unfold iblk1
  rw [View.read_apply]
  show V c main_v54 _ = V c main_v54 _
  congr 1
  funext a
  apply Fin.ext
  match a with
  | ⟨0, _⟩ =>
    show win1_0.index t 0 * 4096 + 1 * r.val = 4096 * t.val + r.val
    rw [h0]; omega
  | ⟨1, _⟩ =>
    show win1_0.index t 1 * 128 + 1 * l.val = l.val
    rw [h1]; omega

/-- Likewise for the second operand. -/
theorem blkB_apply_ad (c : Dev nD) (t : Fin cfg1.N) (r : Fin 4096) (l : Fin 128) :
    blkB_ad V c t (ix2 r l) = arrB_ad V c (ix2 (⟨4096 * t.val + r.val, by have := pt_lt_ad t; omega⟩ : Fin 65536) l) := by
  obtain ⟨-, -, h0, h1⟩ := idx_facts_ad t
  show iblk1 V c 1 t (ix2 r l) = _
  unfold iblk1
  rw [View.read_apply]
  show V c main_v55 _ = V c main_v55 _
  congr 1
  funext a
  apply Fin.ext
  match a with
  | ⟨0, _⟩ =>
    show win1_1.index t 0 * 4096 + 1 * r.val = 4096 * t.val + r.val
    rw [h0]; omega
  | ⟨1, _⟩ =>
    show win1_1.index t 1 * 128 + 1 * l.val = l.val
    rw [h1]; omega

/-! ## The running sum is the sum of the block sums so far -/

/-- Point t's contribution: the sum of |a - b| over the two operands' blocks there. -/
abbrev ptSum_ad (c : Dev nD) (t : Fin cfg1.N) : EReal := blockSum_ad (blkA_ad V c t) (blkB_ad V c t)

/-- After point n the scratch cell holds the block sums of points 0 .. n added up: the zero it starts from is
    neutral, and each later point adds its own block's sum to what the point before left. -/
theorem acc1_apply_ad (c : Dev nD) : ∀ (n : ℕ) (hn : n < cfg1.N) (j : S1x1.Idx),
    acc1 V c n hn j = ∑ s : Fin (n + 1), ptSum_ad V c ⟨s.val, lt_of_lt_of_le s.isLt hn⟩
  | 0, hn, j => by
    rw [acc1_zero]
    refine (update_cell_ad (iblk1 V c 0 ⟨0, hn⟩) (iblk1 V c 1 ⟨0, hn⟩) (k1_pay1 (F := Ideal)) j).trans ?_
    rw [zero_cell_ad, zero_add, Fin.sum_univ_one]
    rfl
  | n + 1, hn, j => by
    rw [acc1_succ]
    refine (update_cell_ad (iblk1 V c 0 ⟨n + 1, hn⟩) (iblk1 V c 1 ⟨n + 1, hn⟩) (acc1 V c n (Nat.lt_of_succ_lt hn)) j).trans ?_
    rw [acc1_apply_ad c n (Nat.lt_of_succ_lt hn) j, Fin.sum_univ_castSucc (n := n + 1)]
    rfl

/-- A block's sum, over the array's entries: rows 4096 t .. 4096 t + 4095. -/
theorem ptSum_eq_ad (c : Dev nD) (t : Fin cfg1.N) :
    ptSum_ad V c t = ∑ r : Fin 4096, ∑ l : Fin 128,
      (fun i : (⟨2, ![65536, 128]⟩ : Shape).Idx => max (arrA_ad V c i - arrB_ad V c i) (-(arrA_ad V c i - arrB_ad V c i)))
        (ix2 (⟨4096 * t.val + r.val, by have := pt_lt_ad t; omega⟩ : Fin 65536) l) := by
  show blockSum_ad (blkA_ad V c t) (blkB_ad V c t) = _
  unfold blockSum_ad
  refine Finset.sum_congr rfl fun r _ => Finset.sum_congr rfl fun l _ => ?_
  rw [blkA_apply_ad V c t r l, blkB_apply_ad V c t r l]

/-- After the last point the cell holds the sum over every entry of the two arrays. -/
theorem acc1_last_ad (c : Dev nD) (n : ℕ) (h : n < cfg1.N) (h15 : n = 15) (j : S1x1.Idx) :
    acc1 V c n h j = Cert.Spec.absDiffTotal (V c main_v54) (V c main_v55) j := by
  subst h15
  rw [acc1_apply_ad V c 15 h j]
  show _ = ∑ i : (⟨2, ![65536, 128]⟩ : Shape).Idx, max (arrA_ad V c i - arrB_ad V c i) (-(arrA_ad V c i - arrB_ad V c i))
  rw [← sum_blocks_ad]
  refine Finset.sum_congr rfl fun s _ => ?_
  exact ptSum_eq_ad V c ⟨s.val, lt_of_lt_of_le s.isLt h⟩

/-! ## The output array after the run -/

/-- The one write-back, at the last point, writes the total: the window's block there is the whole one-cell
    array, and the cell holds the running sum after point 15. -/
theorem flushed_eq_ad (c : Dev nD) (t : Fin cfg1.N) (hf : (cfg1.win 2).flush t = true) :
    (dat1 (F := Ideal) V c).flushed 2 t
      = ((cfg1.win 2).blk t).view.read (Elt Ideal) (Cert.Spec.absDiffTotal (V c main_v54) (V c main_v55)) := by
  have h15 : t.val = 15 := by have := (flush1_2 t).mp hf; have := pt_lt_ad t; omega
  show (cfg1.win 2).cut (cfg1.grid.coords t) ((dat1 (F := Ideal) V c).after 2 t) = _
  rw [after1_2]
  funext y
  have key := acc1_last_ad V c t.val t.isLt h15
  show acc1 V c t.val t.isLt ((cfg1.win 2).xinj (cfg1.grid.coords t) y) = _
  rw [key, View.read_apply]
  unfold Cert.Spec.absDiffTotal
  exact (cast_eq _ _).symm

/-- After all 16 points the one-cell output array holds the total. -/
theorem arr1_eq (c : Dev nD) :
    (dat1 (F := Ideal) V c).arrAt 2 cfg1.N = Cert.Spec.absDiffTotal (V c main_v54) (V c main_v55) :=
  (dat1 (F := Ideal) V c).arrAt_eq_of_cover 2 (Cert.Spec.absDiffTotal (V c main_v54) (V c main_v55))
    (flushed_eq_ad V c) fun i =>
    ⟨t1_15, (flush1_2 t1_15).mpr rfl, by
      show i ∈ ((View.whole main_v56).slice (win1_2.rect t1_15)).set
      rw [View.set_slice_whole, Rect.mem_set_unit]
      intro a
      have hi : (i a : ℕ) < 1 := by
        match a with
        | ⟨0, _⟩ => exact (i 0).isLt
        | ⟨1, _⟩ => exact (i 1).isLt
      have e0 : ∀ a : Fin 2, win1_2.index t1_15 a * win1_2.size a = 0 ∧ win1_2.xsize (grid1.coords t1_15) a = 1 := by
        decide +kernel
      show win1_2.index t1_15 a * win1_2.size a ≤ (i a : ℕ)
        ∧ (i a : ℕ) < win1_2.index t1_15 a * win1_2.size a + win1_2.xsize (grid1.coords t1_15) a
      rw [(e0 a).1, (e0 a).2]
      omega⟩

end Regions

end Cert.KernelIdeal.Hand

end
-- ==== Proof.K.KernelRun.lean ====
/-
  The idealized kernel program's run with both results named, over the extended reals: the first result is the
  host chain's function of the product array `xtK` (the whole 65536 x 128 product of the flattened input with
  the weight, back in three-axis form) and the index argument; the second is the total of |agg - xt| over all
  entries divided by 2^23; the arguments end as launched.
-/
import proofs.«116136_j85521388798293_1_alg».proof.Proof.K.Segs
import proofs.«116136_j85521388798293_1_alg».proof.Proof.K.Results
import proofs.«116136_j85521388798293_1_alg».proof.Proof.K.Value0
import proofs.«116136_j85521388798293_1_alg».proof.Proof.K.Value1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo

variable (m : (ℓ : Loc nD τ sig) → Buf (Elt Ideal) ℓ) (ρ : Dev nD → PrngReg)

/-- The kernel's product array in three-axis form, from the launch memory. -/
def xtK (c : Dev nD) : (⟨S8x8192x128, .f32⟩ : BufTy).Contents (Elt Ideal) :=
  shapeCast _ (Cert.Spec.xtFlat (shapeCast _ (m ((c : Thread nD τ).loc main_arg0)) shapeCasts_S8x8192x128_S65536x128)
    (m ((c : Thread nD τ).loc main_arg2))) shapeCasts_S65536x128_S8x8192x128

/-- Region 0's output array is the whole product of its two input arrays as entered. -/
theorem xt3_eq (c : Dev nD) : xt3 m c = xtK m c := by
  have h : W2 m c (Proc.devRef .tc main_v1) = (dat0 (E0 m) c).arrAt 2 cfg0.N := W2_arr m c 2
  unfold xt3 xtK
  rw [h, arr0_eq (E0 m) c, E0_v0 m c, E0_arg2 m c]

/-- The second result as a function of the first and of the product. -/
def lossK (agg xt : FVec Ideal S8x8192x128 .f32) : FVec Ideal S_ .f32 :=
  Host.divf (F := Ideal) (shapeCast S_ (Cert.Spec.absDiffTotal (shapeCast S65536x128 agg shapeCasts_S8x8192x128_S65536x128)
    (shapeCast S65536x128 xt shapeCasts_S8x8192x128_S65536x128)) shapeCasts_S1x1_S_) (constant (F := Ideal) S_ .f32 0x4B000000#32)

theorem W11_v58_eq (c : Dev nD) :
    W11 m c (Proc.devRef .tc main_v58) = lossK (aggOf (xtK m c) (m ((c : Thread nD τ).loc main_arg1))) (xtK m c) := by
  have h54 : E1 m c main_v54 = _ := E1_v54 m c
  have h55 : E1 m c main_v55 = _ := E1_v55 m c
  rw [W11_v58 m c, arr1_eq (E1 m) c, h54, h55, xt3_eq m c]
  rfl

/-- Every weakly fair execution of the idealized kernel program terminates with the two results at the named
    values and the arguments unchanged. -/
theorem kernel_run : θ_run defs (onTc (τ := τ) (main (F := Ideal))) ⟨m, fun _ => 0, ρ⟩ (fun r => ∀ c : Dev nD,
      r.2.mem ((c.tc : Thread nD τ).loc main_v53) = aggOf (xtK m c) (m ((c.tc : Thread nD τ).loc main_arg1))
      ∧ r.2.mem ((c.tc : Thread nD τ).loc main_v58) = lossK (aggOf (xtK m c) (m ((c.tc : Thread nD τ).loc main_arg1))) (xtK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc' main_v53 (by decide))).trans ((W11_v53 m c).trans (by rw [xt3_eq m c])),
     (h c _ (mem_uc' main_v58 (by decide))).trans (W11_v58_eq m c),
     (h c _ (mem_uc' main_arg0 (by decide))).trans (W11_arg0 m c),
     (h c _ (mem_uc' main_arg1 (by decide))).trans (W11_arg1 m c),
     (h c _ (mem_uc' main_arg2 (by decide))).trans (W11_arg2 m c)⟩) (run_all (F := Ideal) m ρ)

end Cert.KernelIdeal.Hand

end
-- ==== Proof.RefBridge.lean ====
/-
  The reference's two result terms as the host chain's function of ITS product array: the reference applies to
  its contraction of the input with the weight exactly the operations the kernel's program applies to its
  product array, so each result is the chain's one function of that array and the indices; the second divides
  the sum of |agg - xt| over all entries by 2^23.
-/
import proofs.«116136_j85521388798293_1_alg».proof.Proof.RefRunP
import proofs.«116136_j85521388798293_1_alg».proof.Proof.K.Chain

noncomputable section

namespace Cert.Bridge

open Idealize.ShloMosaic Idealize.ShloMosaic.TcCoe Idealize.SL.Sem Idealize.ShloMosaic.StableHlo
open Cert.ReferenceIdeal Cert.ReferenceIdeal.Gen

variable {F : FTy → Type} [FloatOps F]

/-- The reference's product array. -/
abbrev xtR (m : (ℓ : Loc nD τ sig) → Buf (Elt F) ℓ) (c : Dev nD) : (⟨S8x8192x128, .f32⟩ : BufTy).Contents (Elt F) :=
  Host.dotGeneral dot_S8x8192x128_S128x128_S8x8192x128_2_0_01_1_n_n none (m ((c.tc : Thread nD τ).loc main_arg0)) (m ((c.tc : Thread nD τ).loc main_arg2))

set_option maxRecDepth 100000 in
set_option maxHeartbeats 4000000 in
/-- The reference's first result is the chain's function of its product and its index argument. -/
theorem res51_eq (m : (ℓ : Loc nD τ sig) → Buf (Elt F) ℓ) (c : Dev nD) :
    Cert.ReferenceIdeal.ValueP.res_main_v51 m c
      = Cert.KernelIdeal.Hand.aggOf (xtR m c) (m ((c.tc : Thread nD τ).loc main_arg1)) := by
  unfold Cert.ReferenceIdeal.ValueP.res_main_v51 Cert.KernelIdeal.Hand.aggOf
  rfl

set_option maxRecDepth 100000 in
set_option maxHeartbeats 4000000 in
/-- The reference's second result: the sum of |agg - xt| over every entry, divided by 2^23. -/
theorem res55_eq (m : (ℓ : Loc nD τ sig) → Buf (Elt F) ℓ) (c : Dev nD) :
    Cert.ReferenceIdeal.ValueP.res_main_v55 m c
      = Host.divf (Host.reduceAdd (Host.absf (subf (Cert.KernelIdeal.Hand.aggOf (xtR m c) (m ((c.tc : Thread nD τ).loc main_arg1))) (xtR m c)))
          (constant S_ .f32 0x00000000#32) reducesTo_S8x8192x128_S_d0_1_2 h_S_) (constant S_ .f32 0x4B000000#32) := by
  unfold Cert.ReferenceIdeal.ValueP.res_main_v55 Cert.KernelIdeal.Hand.aggOf
  rfl

end Cert.Bridge

end
-- ==== Proof.BridgeXt.lean ====
/-
  The kernel's product array against the reference's contraction, over the extended reals: the flattened
  65536 x 128 product, put back in its [8, 8192, 128] form, is entry by entry the reference's sum over the
  contracted axis — row b * 8192 + s of the flattened input is row (b, s) of the input.
-/
import proofs.«116136_j85521388798293_1_alg».proof.Proof.Gen.KernelIdeal
import proofs.«116136_j85521388798293_1_alg».proof.Proof.Gen.ReferenceIdeal
import proofs.«116136_j85521388798293_1_alg».proof.Proof.K.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx Idealize.SL.Sem

/-- The reference's dimension numbers: the left operand's last axis is contracted against the right operand's
    first; the left operand's two leading axes and the right operand's last axis are kept, in that order. -/
abbrev dn := Cert.ReferenceIdeal.dot_S8x8192x128_S128x128_S8x8192x128_2_0_01_1_n_n

/-! ## Which operand entries a result entry reads

For a result index `i = (b, s, j)` and a contraction index `q` the left operand is read at `(b, s, q)` and the right
operand at `(q, j)`. One lemma per operand axis. -/

theorem lhs_ax0 (i : Cert.ReferenceIdeal.S8x8192x128.Idx) (q : dn.contr.Idx) : (dn.lhsIdx i q 0).val = (i 0).val := by
  unfold DotDims.lhsIdx
  rw [dif_neg (show ¬(0 : Fin Cert.ReferenceIdeal.S8x8192x128.rank) ∈ dn.lhsBatch by decide),
    dif_pos (show (0 : Fin Cert.ReferenceIdeal.S8x8192x128.rank) ∈ dn.lhsNonContracting by decide)]
  rfl

theorem lhs_ax1 (i : Cert.ReferenceIdeal.S8x8192x128.Idx) (q : dn.contr.Idx) : (dn.lhsIdx i q 1).val = (i 1).val := by
  unfold DotDims.lhsIdx
  rw [dif_neg (show ¬(1 : Fin Cert.ReferenceIdeal.S8x8192x128.rank) ∈ dn.lhsBatch by decide),
    dif_pos (show (1 : Fin Cert.ReferenceIdeal.S8x8192x128.rank) ∈ dn.lhsNonContracting by decide)]
  rfl

theorem lhs_ax2 (i : Cert.ReferenceIdeal.S8x8192x128.Idx) (q : dn.contr.Idx) :
    (dn.lhsIdx i q 2).val = (q ⟨0, by decide⟩).val :=
  dn.lhsIdx_val_of_single rfl i q

theorem rhs_ax0 (i : Cert.ReferenceIdeal.S8x8192x128.Idx) (q : dn.contr.Idx) :
    (dn.rhsIdx i q 0).val = (q ⟨0, by decide⟩).val :=
  dn.rhsIdx_val_of_single rfl i q

theorem rhs_ax1 (i : Cert.ReferenceIdeal.S8x8192x128.Idx) (q : dn.contr.Idx) : (dn.rhsIdx i q 1).val = (i 2).val := by
  unfold DotDims.rhsIdx
  rw [dif_neg (show ¬(1 : Fin Cert.ReferenceIdeal.S128x128.rank) ∈ dn.rhsBatch by decide),
    dif_pos (show (1 : Fin Cert.ReferenceIdeal.S128x128.rank) ∈ dn.rhsNonContracting by decide)]
  rfl

/-- Over the extended reals the reference's contraction at `(b, s, j)` is the sum over the 128 values `k` of the
    shared axis of `x (b, s, k) * w (k, j)`: the sum over the one-axis contraction shape is re-indexed by its
    single coordinate. -/
theorem dot_apply (x : FVec Ideal Cert.ReferenceIdeal.S8x8192x128 .f32) (w : FVec Ideal Cert.ReferenceIdeal.S128x128 .f32)
    (i : Cert.ReferenceIdeal.S8x8192x128.Idx) :
    Host.dotGeneral (F := Ideal) dn none x w i = ∑ k : Fin 128, x (ix3 (i 0) (i 1) k) * w (ix2 k (i 2)) := by
  simp only [Host.dotGeneral]
  rw [Ideal.dotGeneral_apply, ← Equiv.sum_comp (ValueIdx.contrEquiv1 dn 128 rfl rfl).symm]
  refine Finset.sum_congr rfl fun k _ => ?_
  have hk := ValueIdx.contrEquiv1_symm_val dn 128 rfl rfl k
  have el : dn.lhsIdx i ((ValueIdx.contrEquiv1 dn 128 rfl rfl).symm k) = ix3 (i 0) (i 1) k :=
    funext fun a => Fin.ext (by
      match a with
      | ⟨0, _⟩ => exact lhs_ax0 _ _
      | ⟨1, _⟩ => exact lhs_ax1 _ _
      | ⟨2, _⟩ => exact (lhs_ax2 _ _).trans hk)
  have er : dn.rhsIdx i ((ValueIdx.contrEquiv1 dn 128 rfl rfl).symm k) = ix2 k (i 2) :=
    funext fun a => Fin.ext (by
      match a with
      | ⟨0, _⟩ => exact (rhs_ax0 _ _).trans hk
      | ⟨1, _⟩ => exact rhs_ax1 _ _)
  rw [el, er]
  rfl

/-- The reshaped flat product is the reference's `dot_general`. -/
theorem xt_eq (x : FVec Ideal Cert.KernelIdeal.S8x8192x128 .f32) (w : FVec Ideal Cert.KernelIdeal.S128x128 .f32) :
    shapeCast Cert.KernelIdeal.S8x8192x128
        (Cert.Spec.xtFlat (shapeCast Cert.KernelIdeal.S65536x128 x Cert.KernelIdeal.Gen.shapeCasts_S8x8192x128_S65536x128) w)
        Cert.KernelIdeal.Gen.shapeCasts_S65536x128_S8x8192x128
      = Host.dotGeneral (F := Ideal) Cert.ReferenceIdeal.dot_S8x8192x128_S128x128_S8x8192x128_2_0_01_1_n_n none x w := by
  funext i
  -- entry (b, s, j) of the [8, 8192, 128] form sits at row-major position ((b * 8192 + s) * 128 + j), which in
  -- the flattened form is entry (b * 8192 + s, j)
  have hb : (i 0).val < 8 := (i 0).isLt
  have hs : (i 1).val < 8192 := (i 1).isLt
  have hrow : (i 0).val * 8192 + (i 1).val < 65536 := by omega
  have hj : (i 2).val < 128 := (i 2).isLt
  rw [shapeCast_apply _ Cert.KernelIdeal.Gen.shapeCasts_S65536x128_S8x8192x128 i
    (ix2 (⟨(i 0).val * 8192 + (i 1).val, hrow⟩ : Fin 65536) (⟨(i 2).val, hj⟩ : Fin 128)) (by
      rw [Shape.rowMajor_val_two, Shape.rowMajor_val_three]
      rfl)]
  rw [dot_apply]
  unfold Cert.Spec.xtFlat
  refine Finset.sum_congr rfl fun k _ => ?_
  -- the left factor: entry (b * 8192 + s, k) of the flattened input is entry (b, s, k) of the input;
  -- the right factor is read at (k, j) on both sides
  have hx : shapeCast Cert.KernelIdeal.S65536x128 x Cert.KernelIdeal.Gen.shapeCasts_S8x8192x128_S65536x128
      (ix2 (⟨(i 0).val * 8192 + (i 1).val, hrow⟩ : Fin 65536) k) = x (ix3 (i 0) (i 1) k) :=
    shapeCast_apply x _ _ (ix3 (i 0) (i 1) k) (by
      rw [Shape.rowMajor_val_two, Shape.rowMajor_val_three]
      rfl)
  exact congrArg₂ (· * ·) hx rfl

end Cert.Bridge

end
-- ==== Proof.BridgeLoss.lean ====
/-
  The kernel's total of |a - b| against the reference's full reduction, over the extended reals: flattening
  both arrays to 65536 x 128 only re-indexes the terms, and a sum over all entries does not depend on the
  indexing (addition on the extended reals is commutative and associative); the reference's initial value is zero.
-/
import proofs.«116136_j85521388798293_1_alg».proof.Proof.Gen.KernelIdeal
import proofs.«116136_j85521388798293_1_alg».proof.Proof.Gen.ReferenceIdeal
import proofs.«116136_j85521388798293_1_alg».proof.Proof.K.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.TcCoe Idealize.ShloMosaic.ValueIdx Idealize.SL.Sem

/-- The one-cell total over the flattened arrays, as a rank-0 array, is the reference's sum over every entry. -/
theorem loss_eq (A B : FVec Ideal Cert.KernelIdeal.S8x8192x128 .f32) :
    shapeCast Cert.KernelIdeal.S_
        (Cert.Spec.absDiffTotal (shapeCast Cert.KernelIdeal.S65536x128 A Cert.KernelIdeal.Gen.shapeCasts_S8x8192x128_S65536x128)
          (shapeCast Cert.KernelIdeal.S65536x128 B Cert.KernelIdeal.Gen.shapeCasts_S8x8192x128_S65536x128))
        Cert.KernelIdeal.Gen.shapeCasts_S1x1_S_
      = Host.reduceAdd (F := Ideal) (Host.absf (subf A B)) (constant Cert.ReferenceIdeal.S_ .f32 0x00000000#32)
          Cert.ReferenceIdeal.Gen.reducesTo_S8x8192x128_S_d0_1_2 Cert.ReferenceIdeal.Gen.h_S_ := by
  -- both sides are one-cell arrays: compare them at the rank-0 index
  funext j
  -- the reference's side: the initial value plus the sum of the operand over every index; the initial value is zero
  simp only [Host.reduceAdd, Ideal.hostReduceAdd_def]
  rw [Ideal.hostReduceAdd_total _ (fun b => b.elim0), constant_apply, Ideal.ofBits_zero_f32, zero_add]
  -- the kernel's side: a reshape only re-indexes, so the total over the flattened index is a sum of the same terms
  -- read through the bijection between the flattened and the three-axis index
  unfold shapeCast Cert.Spec.absDiffTotal
  exact Equiv.sum_comp (Shape.reshapeEquiv Cert.KernelIdeal.Gen.shapeCasts_S8x8192x128_S65536x128)
    (fun k => max (A k - B k) (-(A k - B k)))

end Cert.Bridge

end
-- ==== Proof.lean ====
/-
  The certificate of a hypergraph convolution against its reference, over the extended reals.

  The program is three stages. (1) A tiled kernel multiplies the flattened input [65536, 128] by the weight
  [128, 128], 2048 rows per grid point; the reference contracts the three-axis input with the weight directly.
  Rounding the operands to another float format is the identity on the extended reals and the product
  accumulates into zero, so entry by entry both are the sum over the shared axis of x(b, s, k) * w(k, o).
  (2) Both programs then apply the SAME host operations to that array and to the index argument (per
  hyperedge a count and a sum of gathered rows, their quotient, per node the largest eligible hyperedge, a
  selection): the certificate carries them as one function `aggOf` and never opens them. (3) A second tiled
  kernel adds |agg - xt| over sixteen blocks of 4096 rows into one scratch cell carried across the grid and
  divides by 2^23; the reference sums |agg - xt| over every entry and divides by the same 2^23. Addition on
  the extended reals is commutative and associative and the cell starts at zero, so the two totals agree with
  no finiteness needed: the precondition is never opened.

  The three frames: each kernel region's body obligation, the regions and the host stretches composed in
  order (for the word-level program the same text read at its namespace), and the reference's run with its
  results dropped. Nothing was rewritten by the idealization, so `preserves` is trivial.
-/
import proofs.«116136_j85521388798293_1_alg».proof.Defs
import proofs.«116136_j85521388798293_1_alg».proof.Proof.Gen.Kernel
import proofs.«116136_j85521388798293_1_alg».proof.Proof.Gen.KernelIdeal
import proofs.«116136_j85521388798293_1_alg».proof.Proof.Gen.ReferenceIdeal
import proofs.«116136_j85521388798293_1_alg».proof.Proof.Gen.Pre_finite_inputs
import proofs.«116136_j85521388798293_1_alg».proof.Proof.KB.Segs
import proofs.«116136_j85521388798293_1_alg».proof.Proof.KB.Args
import proofs.«116136_j85521388798293_1_alg».proof.Proof.K.KernelRun
import proofs.«116136_j85521388798293_1_alg».proof.Proof.RefRunP
import proofs.«116136_j85521388798293_1_alg».proof.Proof.RefBridge
import proofs.«116136_j85521388798293_1_alg».proof.Proof.BridgeXt
import proofs.«116136_j85521388798293_1_alg».proof.Proof.BridgeLoss
import Idealize.ShloMosaic.Adequacy
import Idealize.ShloMosaic.Init

noncomputable section

namespace Cert.Proof

open Idealize.ShloMosaic Idealize.ShloMosaic.TcCoe Idealize.SL.Sem

/-- The word-level kernel program runs and its arguments end as launched: its run names every unscoped
    buffer's final contents, read here at the three arguments. -/
theorem frame_k : @Cert.frame_Kernel Cert.Kernel.Gen.facts Cert.Pre_finite_inputs.Gen.facts := fun m ρ _ =>
  (θ_run (Cert.Kernel.defs (F := Bits)) _ _).mono (fun r h c =>
    ⟨(h c _ (Cert.Kernel.Hand.mem_uc' Cert.Kernel.main_arg0 (by decide))).trans (Cert.Kernel.Hand.W11_arg0 m c),
     (h c _ (Cert.Kernel.Hand.mem_uc' Cert.Kernel.main_arg1 (by decide))).trans (Cert.Kernel.Hand.W11_arg1 m c),
     (h c _ (Cert.Kernel.Hand.mem_uc' Cert.Kernel.main_arg2 (by decide))).trans (Cert.Kernel.Hand.W11_arg2 m c)⟩)
    (Cert.Kernel.Hand.run_all (F := Bits) m ρ)

/-- The idealized kernel program likewise: its run with the results dropped. -/
theorem frame_ki : @Cert.frame_KernelIdeal Cert.KernelIdeal.Gen.facts Cert.Pre_finite_inputs.Gen.facts := fun m ρ _ =>
  (θ_run (Cert.KernelIdeal.defs (F := Ideal)) _ _).mono (fun _ h c => (h c).2.2) (Cert.KernelIdeal.Hand.kernel_run m ρ)

/-- The reference: its run with the results dropped. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2.2) (Cert.ReferenceIdeal.ValueP.run (F := Ideal) m ρ)

/-- The two idealized programs, from memories agreeing on the arguments, end with equal results: the kernel's
    product array is the reference's contraction (`xt_eq`), the host chain is one function on both sides, and
    the kernel's block-wise total is the reference's sum over every entry (`loss_eq`). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Hand.kernel_run m ρ, ?_⟩
  refine (θ_run (Cert.ReferenceIdeal.defs (F := Ideal)) _ _).mono (fun _ h c => ⟨(h c).1.trans ?_, (h c).2.1.trans ?_, (h c).2.2⟩)
    (Cert.ReferenceIdeal.ValueP.run (F := Ideal) m' ρ')
  · rw [Cert.Bridge.res51_eq]
    unfold Cert.Bridge.xtR Cert.KernelIdeal.Hand.xtK
    rw [(hagree c).1, (hagree c).2.1, (hagree c).2.2, Cert.Bridge.xt_eq]
  · rw [Cert.Bridge.res55_eq]
    unfold Cert.Bridge.xtR Cert.KernelIdeal.Hand.xtK Cert.KernelIdeal.Hand.lossK
    rw [(hagree c).1, (hagree c).2.1, (hagree c).2.2, Cert.Bridge.xt_eq, Cert.Bridge.loss_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
